-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x1 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S1x2048x3 : Shape := ⟨3, ![1, 2048, 3]⟩
abbrev S1x3x4096 : Shape := ⟨3, ![1, 3, 4096]⟩
abbrev S1x4096 : Shape := ⟨2, ![1, 4096]⟩
abbrev S2048x3 : Shape := ⟨2, ![2048, 3]⟩
abbrev S3x4096 : Shape := ⟨2, ![3, 4096]⟩
abbrev S2048 : Shape := ⟨1, ![2048]⟩
abbrev S2048x1 : Shape := ⟨2, ![2048, 1]⟩
abbrev S4096 : Shape := ⟨1, ![4096]⟩
abbrev S2x4096 : Shape := ⟨2, ![2, 4096]⟩
abbrev S2048x7 : Shape := ⟨2, ![2048, 7]⟩
abbrev S7x4096 : Shape := ⟨2, ![7, 4096]⟩
abbrev S2048x4096 : Shape := ⟨2, ![2048, 4096]⟩
abbrev S1x2048x1 : Shape := ⟨3, ![1, 2048, 1]⟩
abbrev S1 : Shape := ⟨1, ![1]⟩
abbrev S1x1x1 : Shape := ⟨3, ![1, 1, 1]⟩
abbrev S1x1x4096 : Shape := ⟨3, ![1, 1, 4096]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S4x4096x3_S4x3x4096_0_2_1 : S4x4096x3.Transposes [0, 2, 1] S4x3x4096
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S2048x3_S2048 : S2048x3.Reduces [1] S2048
  shapeCasts_S2048_S2048x1 : S2048.ShapeCasts S2048x1
  reduces_S3x4096_S4096 : S3x4096.Reduces [0] S4096
  shapeCasts_S4096_S1x4096 : S4096.ShapeCasts S1x4096
  bitsLt_bf16_f32 : FTy.bits .bf16 < FTy.bits .f32
  concatenates_S2048x3_S2048x1_S2048x1_S2048x1_S2048x1_S2048x7_d1 : Shape.Concatenates [S2048x3, S2048x1, S2048x1, S2048x1, S2048x1] S2048x7 1
  concatenates_S3x4096_S1x4096_S1x4096_S2x4096_S7x4096_d0 : Shape.Concatenates [S3x4096, S1x4096, S1x4096, S2x4096] S7x4096 0
  reduces_S2048x4096_S2048 : S2048x4096.Reduces [1] S2048
  reduces_S2048x4096_S4096 : S2048x4096.Reduces [0] S4096
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x4096_S1x1x4096 : S1x4096.ShapeCasts S1x1x4096
  reduces_S1x1x4096_S1 : S1x1x4096.Reduces [1, 2] S1
  shapeCasts_S1x1_S_ : S1x1.ShapeCasts S_
  dot_S2048x7_S7x4096_S2048x4096_1_0_0_1_n_n_wf : DotDims.WF S2048x7 S7x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x4096x3.size a
  hwx0_0 : ∀ i : grid0.Coords, EltTy.bits .f32 = 32 ∨ (Rect.block (s := S4x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x7_S7x4096_S2048x4096_1_0_0_1_n_n : DotDims S2048x7 S7x4096 S2048x4096 where
  lhsContracting := [1]
  rhsContracting := [0]
  lhsNonContracting := [0]
  rhsNonContracting := [1]
  lhsBatch := []
  rhsBatch := []
  wf := dot_S2048x7_S7x4096_S2048x4096_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Finite.lean ====
/-
  From the precondition to "every entry of both clouds is a real number".

  The precondition is the conjunction of two all-reductions of the entrywise test |x| < +∞; on the extended reals an
  entry passes the test exactly when it is neither infinity, that is, when it is (the image of) a real.
-/
import proofs.«109187_g19164144075464_cont_8to1_1702_14_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Chamfer.Finite

/-- The rank-0 shape has one index. -/
private instance subsingleton_scalar_idx : Subsingleton Cert.Pre_finite_inputs.S_.Idx :=
  ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value `max x (-x)` is strictly below +∞ is a real: at either infinity the
    absolute value is +∞ itself. -/
private theorem real_of_abs_lt_inf (x : Ideal .f32)
    (hx : FloatOps.cmpf .olt (FloatOps.hostAbsf x) (Ideal.ofBits .f32 0x7F800000#32) = 1#1) : ∃ r : ℝ, x = r := by
  rw [Ideal.hostAbsf_def, Ideal.absf_def, Ideal.cmpf_def, inf_word] at hx
  induction x using EReal.rec with
  | bot => simp [Ideal.cmp] at hx
  | coe r => exact ⟨r, rfl⟩
  | top => simp [Ideal.cmp] at hx

theorem finite_of_fn [Cert.Pre_finite_inputs.Facts] (A B : FVec Ideal Cert.Pre_finite_inputs.S4x4096x3 .f32)
    (h : Cert.Pre_finite_inputs.fn (F := Ideal) A B = fun _ => 1#1) :
    (∀ i, ∃ r : ℝ, A i = r) ∧ (∀ i, ∃ r : ℝ, B i = r) := by
  have h0 := congrFun h ValueIdx.ix0
  dsimp only [Cert.Pre_finite_inputs.fn] at h0
  -- the conjunction of the two all-reductions
  obtain ⟨hA, hB⟩ := IntOp.andi_eq_one.1 h0
  refine ⟨fun i => ?_, fun i => ?_⟩
  · -- every entry of the first cloud passes the test
    have hi := Host.reduce_andi_all _ _ _ _ _ hA i
    exact real_of_abs_lt_inf (A i) hi
  · -- every entry of the second cloud passes the test
    have hi := Host.reduce_andi_all _ _ _ _ _ hB i
    exact real_of_abs_lt_inf (B i) hi

end Cert.Chamfer.Finite

end
-- ==== Proof.Spec.lean ====
/-
  The L1 Chamfer loss as ONE function of the two point clouds, over the extended reals.

  For clouds A, B (four batches of 4096 points with three coordinates) the squared distance of
  point n of A and point m of B in batch b is taken in the expanded form
  |a|² + |b|² - 2 a·b, clamped below at zero; each point's distance to the other cloud is the minimum of these
  over the other cloud's points, and the loss is the sum of the square roots of all 2·4·4096 such minima divided by
  2·4·4096 = 32768.
  The same number is reached row block by row block: the rows of a batch are cut into two blocks of 2048,
  a block's contribution is the sum of its rows' roots, the column minima are folded across the two blocks,
  and the clamp at zero may be taken after a minimum instead of before it.
-/
import Idealize.ShloMosaic.Lib.ValueIdx
import Idealize.ShloMosaic.PureOps.Ideal

noncomputable section

namespace Cert.Chamfer

open Idealize.ShloMosaic Idealize.ShloMosaic.ValueIdx

/-- A cloud: four batches of 4096 points in three coordinates. -/
abbrev Pts : Type := (⟨3, ![4, 4096, 3]⟩ : Shape).Idx → EReal

/-- The minimum of a finite family, started from +∞. -/
def mn {ι : Type} [Fintype ι] (f : ι → EReal) : EReal := Finset.univ.fold min ⊤ f

/-- |aₙ|², the squared norm of point n of batch b. -/
def nrm (A : Pts) (b : Fin 4) (n : Fin 4096) : EReal := ∑ k : Fin 3, A (ix3 b n k) * A (ix3 b n k)

/-- aₙ · bₘ. -/
def dotp (A B : Pts) (b : Fin 4) (n m : Fin 4096) : EReal := ∑ k : Fin 3, A (ix3 b n k) * B (ix3 b m k)

/-- |aₙ|² + |bₘ|² - 2 aₙ·bₘ, before the clamp. -/
def dpre (A B : Pts) (b : Fin 4) (n m : Fin 4096) : EReal :=
  (nrm A b n + nrm B b m) - ((2 : ℝ) : EReal) * dotp A B b n m

/-- The clamped squared distance. -/
def dist (A B : Pts) (b : Fin 4) (n m : Fin 4096) : EReal := max (dpre A B b n m) 0

/-- Point n of A to the cloud B. -/
def rowMin (A B : Pts) (b : Fin 4) (n : Fin 4096) : EReal := mn fun m : Fin 4096 => dist A B b n m

/-- Point m of B to the cloud A. -/
def colMin (A B : Pts) (b : Fin 4) (m : Fin 4096) : EReal := mn fun n : Fin 4096 => dist A B b n m

def S1 (A B : Pts) : EReal := ∑ b : Fin 4, ∑ n : Fin 4096, Ideal.sqrt (rowMin A B b n)
def S2 (A B : Pts) : EReal := ∑ b : Fin 4, ∑ m : Fin 4096, Ideal.sqrt (colMin A B b m)

/-- The loss. -/
def loss (A B : Pts) : EReal := Ideal.div (S1 A B + S2 A B) ((32768 : ℝ) : EReal)

/-! ## Row blocks -/

/-- Row p of row block nb. -/
def rowIdx (nb : Fin 2) (p : Fin 2048) : Fin 4096 := ⟨nb.val * 2048 + p.val, by have := nb.isLt; have := p.isLt; omega⟩

/-- A row block's contribution: the sum over its rows of the root of the row minimum, the clamp taken AFTER the minimum. -/
def partialRow (A B : Pts) (b : Fin 4) (nb : Fin 2) : EReal :=
  ∑ p : Fin 2048, Ideal.sqrt (max (mn fun q : Fin 4096 => dpre A B b (rowIdx nb p) q) 0)

/-- A row block's column minima, unclamped. -/
def colBlk (A B : Pts) (b : Fin 4) (nb : Fin 2) (q : Fin 4096) : EReal := mn fun p : Fin 2048 => dpre A B b (rowIdx nb p) q

/-- A batch's column contribution: the two blocks' column minima folded, clamped, rooted, summed. -/
def colSum (A B : Pts) (b : Fin 4) : EReal :=
  ∑ q : Fin 4096, Ideal.sqrt (max (min (colBlk A B b 0 q) (colBlk A B b 1 q)) 0)

/-- What grid point t = 2 b + nb adds to the accumulator: its row block's part, and after a batch's second block the
    batch's column part. -/
def contrib (A B : Pts) (b : Fin 4) (nb : Fin 2) : EReal :=
  if nb = 1 then partialRow A B b nb + colSum A B b else partialRow A B b nb

/-! ## The laws -/

/-- The clamp commutes with the minimum. -/
theorem max_mn {ι : Type} [Fintype ι] (f : ι → EReal) : max (mn f) 0 = mn fun i => max (f i) 0 := by
  unfold mn
  have h := Finset.fold_hom (op := min) (op' := min) (s := Finset.univ) (b := (⊤ : EReal)) (f := f)
    (m := fun x : EReal => max x 0) (fun x y => max_min_distrib_right x y 0)
  rw [max_eq_left (le_top : (0 : EReal) ≤ ⊤)] at h
  exact h.symm

/-- Every row is a row of the lower block or of the upper block. -/
private theorem row_cases (n : Fin 4096) : (∃ p : Fin 2048, n = rowIdx 0 p) ∨ ∃ p : Fin 2048, n = rowIdx 1 p := by
  by_cases hn : n.val < 2048
  · exact Or.inl ⟨⟨n.val, hn⟩, Fin.ext (by show n.val = 0 * 2048 + n.val; omega)⟩
  · have hn' : n.val - 2048 < 2048 := by have := n.isLt; omega
    exact Or.inr ⟨⟨n.val - 2048, hn'⟩, Fin.ext (by show n.val = 1 * 2048 + (n.val - 2048); omega)⟩

/-- A minimum over 4096 rows is the minimum of the two blocks' minima. -/
theorem mn_blocks (f : Fin 4096 → EReal) :
    mn f = min (mn fun p : Fin 2048 => f (rowIdx 0 p)) (mn fun p : Fin 2048 => f (rowIdx 1 p)) := by
  refine eq_of_forall_le_iff fun c => ?_
  unfold mn
  rw [le_min_iff, Finset.le_fold_min, Finset.le_fold_min, Finset.le_fold_min]
  constructor
  · rintro ⟨h0, h⟩
    exact ⟨⟨h0, fun p _ => h _ (Finset.mem_univ _)⟩, ⟨h0, fun p _ => h _ (Finset.mem_univ _)⟩⟩
  · rintro ⟨⟨h0, h1⟩, ⟨_, h2⟩⟩
    refine ⟨h0, fun n _ => ?_⟩
    rcases row_cases n with ⟨p, rfl⟩ | ⟨p, rfl⟩
    · exact h1 p (Finset.mem_univ _)
    · exact h2 p (Finset.mem_univ _)

/-- A sum over 4096 rows is the sum of the two blocks' sums. -/
theorem sum_blocks (f : Fin 4096 → EReal) :
    ∑ n : Fin 4096, f n = (∑ p : Fin 2048, f (rowIdx 0 p)) + ∑ p : Fin 2048, f (rowIdx 1 p) := by
  have h := Fin.sum_univ_add (a := 2048) (b := 2048) (fun i : Fin (2048 + 2048) => f i)
  refine h.trans (congrArg₂ (fun x y : EReal => x + y)
    (Finset.sum_congr rfl fun p _ => congrArg f (Fin.ext ?_))
    (Finset.sum_congr rfl fun p _ => congrArg f (Fin.ext ?_)))
  · show p.val = 0 * 2048 + p.val
    omega
  · show 2048 + p.val = 1 * 2048 + p.val
    omega

theorem partialRow_eq (A B : Pts) (b : Fin 4) (nb : Fin 2) :
    partialRow A B b nb = ∑ p : Fin 2048, Ideal.sqrt (rowMin A B b (rowIdx nb p)) := by
  unfold partialRow rowMin Cert.Chamfer.dist
  refine Finset.sum_congr rfl fun p _ => ?_
  rw [max_mn]

theorem colSum_eq (A B : Pts) (b : Fin 4) : colSum A B b = ∑ q : Fin 4096, Ideal.sqrt (colMin A B b q) := by
  unfold colSum colMin colBlk Cert.Chamfer.dist
  refine Finset.sum_congr rfl fun q _ => ?_
  have h : mn (fun n : Fin 4096 => dpre A B b n q)
      = min (mn fun p : Fin 2048 => dpre A B b (rowIdx 0 p) q) (mn fun p : Fin 2048 => dpre A B b (rowIdx 1 p) q) :=
    mn_blocks fun n => dpre A B b n q
  rw [← h, max_mn]

/-- The eight grid points' contributions, in any order, are the two sums. -/
theorem total_eq (A B : Pts) : ∑ b : Fin 4, ∑ nb : Fin 2, contrib A B b nb = S1 A B + S2 A B := by
  unfold S1 S2
  rw [← Finset.sum_add_distrib]
  refine Finset.sum_congr rfl fun b _ => ?_
  have h0 : contrib A B b 0 = partialRow A B b 0 := by
    unfold contrib; rw [if_neg (by decide)]
  have h1 : contrib A B b 1 = partialRow A B b 1 + colSum A B b := by
    unfold contrib; rw [if_pos rfl]
  have hs : ∑ n : Fin 4096, Ideal.sqrt (rowMin A B b n)
      = (∑ p : Fin 2048, Ideal.sqrt (rowMin A B b (rowIdx 0 p))) + ∑ p : Fin 2048, Ideal.sqrt (rowMin A B b (rowIdx 1 p)) :=
    sum_blocks fun n => Ideal.sqrt (rowMin A B b n)
  rw [Fin.sum_univ_two, h0, h1, partialRow_eq, partialRow_eq, colSum_eq, hs, add_assoc]

/-- The contribution of grid point s = 2 b + nb, the points counted 0 … 7. -/
def contribN (A B : Pts) (s : ℕ) : EReal :=
  contrib A B ⟨s / 2 % 4, Nat.mod_lt _ (by decide)⟩ ⟨s % 2, Nat.mod_lt _ (by decide)⟩

/-- The same total with the grid points counted in their order 0 … 7. -/
theorem total_range (A B : Pts) : ∑ s ∈ Finset.range 8, contribN A B s = S1 A B + S2 A B := by
  rw [← total_eq]
  have e0 : contribN A B 0 = contrib A B 0 0 := rfl
  have e1 : contribN A B 1 = contrib A B 0 1 := rfl
  have e2 : contribN A B 2 = contrib A B 1 0 := rfl
  have e3 : contribN A B 3 = contrib A B 1 1 := rfl
  have e4 : contribN A B 4 = contrib A B 2 0 := rfl
  have e5 : contribN A B 5 = contrib A B 2 1 := rfl
  have e6 : contribN A B 6 = contrib A B 3 0 := rfl
  have e7 : contribN A B 7 = contrib A B 3 1 := rfl
  simp only [Finset.sum_range_succ, Finset.sum_range_zero, Fin.sum_univ_four, Fin.sum_univ_two, zero_add,
    e0, e1, e2, e3, e4, e5, e6, e7, add_assoc]

theorem sqrt_nonneg_of_nonneg {x : EReal} (h : 0 ≤ x) : 0 ≤ Ideal.sqrt x := by
  induction x using EReal.rec with
  | bot => exact absurd (le_bot_iff.mp h) EReal.zero_ne_bot
  | top => rw [Ideal.sqrt_top]; exact le_top
  | coe r =>
    have hr : 0 ≤ r := by exact_mod_cast h
    rw [Ideal.sqrt_coe, if_neg (not_lt.mpr hr)]
    exact_mod_cast Real.sqrt_nonneg r

/-- A minimum of numbers that are not negative, started from +∞, is not negative. -/
private theorem mn_nonneg {ι : Type} [Fintype ι] (f : ι → EReal) (hf : ∀ i, 0 ≤ f i) : 0 ≤ mn f := by
  unfold mn
  rw [Finset.le_fold_min]
  exact ⟨le_top, fun i _ => hf i⟩

private theorem dist_nonneg (A B : Pts) (b : Fin 4) (n m : Fin 4096) : 0 ≤ Cert.Chamfer.dist A B b n m := by
  unfold Cert.Chamfer.dist
  exact le_max_right _ _

theorem S1_nonneg (A B : Pts) : 0 ≤ S1 A B := by
  unfold S1
  refine Finset.sum_nonneg fun b _ => Finset.sum_nonneg fun n _ => sqrt_nonneg_of_nonneg ?_
  exact mn_nonneg _ fun m => dist_nonneg A B b n m

theorem S2_nonneg (A B : Pts) : 0 ≤ S2 A B := by
  unfold S2
  refine Finset.sum_nonneg fun b _ => Finset.sum_nonneg fun m _ => sqrt_nonneg_of_nonneg ?_
  exact mn_nonneg _ fun n => dist_nonneg A B b n m

/-- The reference's two means, added and halved, are the one quotient by 32768: the sums are not negative, so the
    product distributes over them on the extended reals. -/
theorem loss_two_means (A B : Pts) :
    Ideal.div (Ideal.div (0 + S1 A B) ((16384 : ℝ) : EReal) + Ideal.div (0 + S2 A B) ((16384 : ℝ) : EReal)) ((2 : ℝ) : EReal)
      = loss A B := by
  unfold loss
  rw [zero_add, zero_add, Ideal.div_coe (y := 16384) (by norm_num), Ideal.div_coe (y := 16384) (by norm_num),
    Ideal.div_coe (y := 2) (by norm_num), Ideal.div_coe (y := 32768) (by norm_num),
    ← EReal.right_distrib_of_nonneg (S1_nonneg A B) (S2_nonneg A B), mul_assoc, ← EReal.coe_mul]
  norm_num

/-- One entry of the seven-deep product, on finite numbers: the three coordinate products with -2 folded in, the two
    norm columns against ones and the two exact remainders (which vanish) add up to |a|² + |b|² - 2 a·b. -/
theorem ext_dot (a b : Fin 3 → EReal) (ha : ∀ k, ∃ r : ℝ, a k = r) (hb : ∀ k, ∃ r : ℝ, b k = r) :
    (((-2 : ℝ) : EReal) * a 0) * b 0 + (((-2 : ℝ) : EReal) * a 1) * b 1 + (((-2 : ℝ) : EReal) * a 2) * b 2
        + ((1 : ℝ) : EReal) * (∑ k : Fin 3, b k * b k)
        + ((1 : ℝ) : EReal) * ((∑ k : Fin 3, b k * b k) - ∑ k : Fin 3, b k * b k)
        + (∑ k : Fin 3, a k * a k) * ((1 : ℝ) : EReal)
        + ((∑ k : Fin 3, a k * a k) - ∑ k : Fin 3, a k * a k) * ((1 : ℝ) : EReal)
      = ((∑ k : Fin 3, a k * a k) + ∑ k : Fin 3, b k * b k) - ((2 : ℝ) : EReal) * ∑ k : Fin 3, a k * b k := by
  choose ra hra using ha
  choose rb hrb using hb
  simp only [Fin.sum_univ_three, hra, hrb]
  simp only [← EReal.coe_mul, ← EReal.coe_add, ← EReal.coe_sub]
  rw [EReal.coe_eq_coe_iff]
  ring

end Cert.Chamfer

end
-- ==== Proof.Consts.lean ====
/-
  The float literals the two programs spell, as the extended reals their patterns denote:
  zero, two, minus two, the two means' divisors 16384 and 32768, bf16's one, and +infinity
  (the neutral element both programs start their minima from).
-/
import Idealize.ShloMosaic.PureOps.Ideal.Laws

noncomputable section

namespace Cert.Chamfer.Consts

open Idealize.ShloMosaic

theorem zero_f32 : Ideal.ofBits .f32 0x00000000#32 = 0 := Ideal.ofBits_zero_f32

theorem two_f32 : Ideal.ofBits .f32 0x40000000#32 = ((2 : ℝ) : EReal) := by
  simp [Ideal.ofBits, Ideal.ieee, -EReal.coe_mul]; norm_num

theorem neg_two_f32 : Ideal.ofBits .f32 0xC0000000#32 = ((-2 : ℝ) : EReal) := by
  simp [Ideal.ofBits, Ideal.ieee, -EReal.coe_mul]; norm_num

theorem n16384_f32 : Ideal.ofBits .f32 0x46800000#32 = ((16384 : ℝ) : EReal) := by
  simp [Ideal.ofBits, Ideal.ieee, -EReal.coe_mul]; norm_num

theorem n32768_f32 : Ideal.ofBits .f32 0x47000000#32 = ((32768 : ℝ) : EReal) := by
  simp [Ideal.ofBits, Ideal.ieee, -EReal.coe_mul]; norm_num

theorem one_bf16 : Ideal.ofBits .bf16 0x3F80#16 = ((1 : ℝ) : EReal) := by
  simp [Ideal.ofBits, Ideal.ieee, -EReal.coe_mul]; norm_num

theorem top_f32 : Ideal.ofBits .f32 0x7F800000#32 = ⊤ := by
  simp [Ideal.ofBits, Ideal.ieee]

end Cert.Chamfer.Consts

end
-- ==== Proof.RefValue.lean ====
/-
  The reference, read as the loss.

  jnp's program forms the whole 4 × 4096 × 4096 field of clamped squared distances |a|² + |b|² - 2 a·b, takes its
  minima along either point axis, roots and sums each family of minima, divides each sum by 4·4096 and halves the sum of
  the two means. Read one operation at a time this is the specification's loss: the two quotients by 16384 and the
  halving are one quotient by 32768 because neither sum is negative.
-/
import proofs.«109187_g19164144075464_cont_8to1_1702_14_alg».proof.Proof.Gen.ReferenceIdeal.Read
import proofs.«109187_g19164144075464_cont_8to1_1702_14_alg».proof.Proof.Spec
import proofs.«109187_g19164144075464_cont_8to1_1702_14_alg».proof.Proof.Consts
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.Read Cert.Chamfer

/-! ## Where the composed index maps land

At the point (b, n, m) of the distance field the contraction reads the first cloud at (b, n, k) and the second at
(b, m, k); the two broadcast squared norms, traced back through their unit axes, are summed over the same points. -/

private theorem lidx_at (b : Fin 4) (n m : Fin 4096) (k : Fin 3) :
    lidx_main_v4 (ix3 b n m) k = ix3 b n k :=
  funext fun a => Fin.ext (by match a with | ⟨0, _⟩ => rfl | ⟨1, _⟩ => rfl | ⟨2, _⟩ => rfl)

private theorem ridx_at (b : Fin 4) (n m : Fin 4096) (k : Fin 3) :
    ridx_main_v4 (ix3 b n m) k = ix3 b m k :=
  funext fun a => Fin.ext (by match a with | ⟨0, _⟩ => rfl | ⟨1, _⟩ => rfl | ⟨2, _⟩ => rfl)

private theorem nrm0_at (b : Fin 4) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

private theorem nrm1_at (b : Fin 4) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The clamped distance field at (b, n, m). -/
theorem v14_apply (x0 x1 : FVec Ideal S4x4096x3 .f32) (b : Fin 4) (n m : Fin 4096) :
    val_main_v14 (F := Ideal) x0 x1 (ix3 b n m) = dist x0 x1 b n m := by
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply, val_main_cst_apply, val_main_cst_0_apply,
    val_main_cst_1_apply, val_main_cst_2_apply]
  simp only [val_main_v0_apply, val_main_v2_apply, lidx_at, ridx_at, nrm0_at, nrm1_at, Ideal.mulf_def, Ideal.addf_def,
    Ideal.subf_def, Ideal.maximumf_def, Ideal.ofBits_def, Consts.zero_f32, Consts.two_f32, zero_add]
  rfl

/-! ## The two families of minima

A minimum along one point axis is the fold of min from +∞ over that axis's coordinates; the index over (b, n) with m
put on the last axis, and the index over (b, m) with n put on the middle axis, are both the point (b, n, m). -/

private theorem red_last : S4x4096x4096.Reduces [2] S4x4096 := by decide

private theorem red_mid : S4x4096x4096.Reduces [1] S4x4096 := by decide

private theorem lift_last (b : Fin 4) (n m : Fin 4096) : red_last.lift (ix2 b n) m = ix3 b n m :=
  funext fun a => Fin.ext (by match a with | ⟨0, _⟩ => rfl | ⟨1, _⟩ => rfl | ⟨2, _⟩ => rfl)

private theorem lift_mid (b : Fin 4) (m n : Fin 4096) : red_mid.lift (ix2 b m) n = ix3 b n m :=
  funext fun a => Fin.ext (by match a with | ⟨0, _⟩ => rfl | ⟨1, _⟩ => rfl | ⟨2, _⟩ => rfl)

/-- Its minimum along the second cloud's axis. -/
theorem v15_apply (x0 x1 : FVec Ideal S4x4096x3 .f32) (b : Fin 4) (n : Fin 4096) :
    val_main_v15 (F := Ideal) x0 x1 (ix2 b n) = rowMin x0 x1 b n := by
  unfold val_main_v15
  refine (Host.reduce_eq_fold_single FloatOps.minimumf _ _ reducesTo_S4x4096x4096_S4x4096_d2 red_last h_S_ (ix2 b n)).trans ?_
  rw [val_main_cst_3_apply, Ideal.ofBits_def, Consts.top_f32]
  have hf : (val_main_v14 (F := Ideal) x0 x1 ∘ red_last.lift (ix2 b n)) = fun m : Fin 4096 => dist x0 x1 b n m :=
    funext fun m => (congrArg (val_main_v14 (F := Ideal) x0 x1) (lift_last b n m)).trans (v14_apply x0 x1 b n m)
  rw [hf]
  unfold rowMin mn
  rfl

/-- Its minimum along the first cloud's axis. -/
theorem v16_apply (x0 x1 : FVec Ideal S4x4096x3 .f32) (b : Fin 4) (m : Fin 4096) :
    val_main_v16 (F := Ideal) x0 x1 (ix2 b m) = colMin x0 x1 b m := by
  unfold val_main_v16
  refine (Host.reduce_eq_fold_single FloatOps.minimumf _ _ reducesTo_S4x4096x4096_S4x4096_d1 red_mid h_S_ (ix2 b m)).trans ?_
  rw [val_main_cst_4_apply, Ideal.ofBits_def, Consts.top_f32]
  have hf : (val_main_v14 (F := Ideal) x0 x1 ∘ red_mid.lift (ix2 b m)) = fun n : Fin 4096 => dist x0 x1 b n m :=
    funext fun n => (congrArg (val_main_v14 (F := Ideal) x0 x1) (lift_mid b m n)).trans (v14_apply x0 x1 b n m)
  rw [hf]
  unfold colMin mn
  rfl

/-! ## The two sums of roots, and the result

Each sum over the 4 × 4096 index set is the double sum over its two coordinates, term by term the root of a minimum. -/

private theorem sum_rowRoots (x0 x1 : FVec Ideal S4x4096x3 .f32) :
    ∑ j : S4x4096.Idx, val_main_v17 (F := Ideal) x0 x1 j = S1 x0 x1 := by
  rw [ValueIdx.sum_idx2 (n0 := 4) (n1 := 4096) (fun j => val_main_v17 (F := Ideal) x0 x1 j)]
  unfold S1
  exact Finset.sum_congr rfl fun b _ => Finset.sum_congr rfl fun n _ => by
    rw [val_main_v17_apply, v15_apply, Ideal.hostUnary_sqrt_def]

private theorem sum_colRoots (x0 x1 : FVec Ideal S4x4096x3 .f32) :
    ∑ j : S4x4096.Idx, val_main_v20 (F := Ideal) x0 x1 j = S2 x0 x1 := by
  rw [ValueIdx.sum_idx2 (n0 := 4) (n1 := 4096) (fun j => val_main_v20 (F := Ideal) x0 x1 j)]
  unfold S2
  exact Finset.sum_congr rfl fun b _ => Finset.sum_congr rfl fun m _ => by
    rw [val_main_v20_apply, v16_apply, Ideal.hostUnary_sqrt_def]

/-- The reference's result is the loss. -/
theorem ref_eq (x0 x1 : FVec Ideal S4x4096x3 .f32) :
    val_main_v24 (F := Ideal) x0 x1 = fun _ => loss x0 x1 := by
  funext i
  rw [val_main_v24_apply, val_main_v23_apply, val_main_v19_apply, val_main_v22_apply, val_main_v18_apply,
    val_main_v21_apply, val_main_cst_9_apply, val_main_cst_6_apply, val_main_cst_8_apply, val_main_cst_5_apply,
    val_main_cst_7_apply, sum_rowRoots, sum_colRoots]
  simp only [Ideal.hostDivf_def, Ideal.addf_def, Ideal.ofBits_def, Consts.zero_f32, Consts.n16384_f32, Consts.two_f32]
  exact loss_two_means x0 x1

end Cert.ReferenceIdeal.RefValue

end
-- ==== Proof.Pieces.lean ====
/-
  What each control case of the body leaves behind, read as values.

  The body keeps two things between grid points: the (1,1) accumulator block and the (1,4096) row of running column minima.
  At the very first point it zeroes the accumulator, adds the row block's part, and starts the column row afresh;
  at a later first block of a batch it adds the row block's part to what the accumulator held and starts the column row
  afresh; at a batch's second block it folds the block's column minima into the row, adds the row block's part, and then
  adds the finished column row's part on top. Each statement below names the final contents of one of the two buffers
  in one case as the body's own arithmetic applied to what the buffers held and to the two input blocks.
-/
import proofs.«109187_g19164144075464_cont_8to1_1702_14_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of the grid: the accumulator ends at zero plus the row block's part. -/
theorem out_A (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : cond0_2 i) (hc3 : ¬cond0_3 i)
    (x0 : Vec F S1x2048x3 .f32) (x1 : Vec F S1x3x4096 .f32) :
    out0_A_2 c i arg2 harg2 arg3 harg3 arg4 harg4 arg5 harg5 hc0 hc1 hc2 hc3 x0 x1 = k0_pay4 (k0_pay8 x0 x1) (k0_pay3 (F := F)) := by
  unfold out0_A_2
  rw [View.read_writes_eq_canon _ _ _ (cover0_A_2 c i arg2 harg2 arg3 harg3 arg4 harg4 arg5 harg5 hc0 hc1 hc2 hc3 x0 x1)]
  unfold kernelRun0_A
  dsimp only
  sl_unfold_words
  rw [View.canon_cons_unit_zero (S := S1x1) hz2]
  simp only [View.readAt_eq_ld, harg2.read_unread, harg3.read_unread, harg4.read_unread, harg5.read_unread, View.ld_unit_zero (S := S1x2048x3) hz3, View.ld_unit_zero (S := S1x3x4096) hz3, View.ld_unit_zero (S := S1x4096) hz2, View.ld_unit_zero (S := S1x1) hz2, View.readCov_unit_zero (S := S1x1) _ hz2, View.readCov_unit_zero (S := S1x4096) _ hz2]

/-- First point of the grid: the column row is this block's column minima. -/
theorem sout_A (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : cond0_2 i) (hc3 : ¬cond0_3 i)
    (x0 : Vec F S1x2048x3 .f32) (x1 : Vec F S1x3x4096 .f32) :
    sout0_A_0 c i arg2 harg2 arg3 harg3 arg4 harg4 arg5 harg5 hc0 hc1 hc2 hc3 x0 x1 = k0_pay1 (k0_pay7 x0 x1) := by
  unfold sout0_A_0
  rw [View.read_writes_eq_canon _ _ _ (scover0_A_0 c i arg2 harg2 arg3 harg3 arg4 harg4 arg5 harg5 hc0 hc1 hc2 hc3 x0 x1)]
  unfold kernelRun0_A
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x4096) hz2, View.ld_unit_zero (S := S1x1) hz2, View.readCov_unit_zero (S := S1x1) _ hz2, View.readCov_unit_zero (S := S1x4096) _ hz2]

/-- A batch's second block: the accumulator ends at what it held, plus the row block's part, plus the part of the
    column row after this block's minima were folded in. -/
theorem out_B (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : ¬cond0_0 i) (hc1 : cond0_1 i) (hc2 : ¬cond0_2 i) (hc3 : cond0_3 i)
    (x0 : Vec F S1x2048x3 .f32) (x1 : Vec F S1x3x4096 .f32) (xo2 : Vec F S1x1 .f32) (xs0 : Vec F S1x4096 .f32) :
    out0_B_2 c i arg2 harg2 arg3 harg3 arg4 harg4 arg5 harg5 hc0 hc1 hc2 hc3 x0 x1 xo2 xs0 = k0_pay5 (k0_pay2 (k0_pay7 x0 x1) xs0) (k0_pay4 (k0_pay8 x0 x1) xo2) := by
  unfold out0_B_2
  rw [View.read_writes_eq_canon _ _ _ (cover0_B_2 c i arg2 harg2 arg3 harg3 arg4 harg4 arg5 harg5 hc0 hc1 hc2 hc3 x0 x1 xo2 xs0)]
  unfold kernelRun0_B
  dsimp only
  sl_unfold_words
  rw [View.canon_cons_unit_zero (S := S1x1) hz2]
  simp only [View.readAt_eq_ld, harg2.read_unread, harg3.read_unread, harg4.read_unread, harg5.read_unread, View.ld_unit_zero (S := S1x2048x3) hz3, View.ld_unit_zero (S := S1x3x4096) hz3, View.ld_unit_zero (S := S1x4096) hz2, View.ld_unit_zero (S := S1x1) hz2, View.readCov_unit_zero (S := S1x1) _ hz2, View.readCov_unit_zero (S := S1x4096) _ hz2]

/-- A batch's second block: the column row is the fold of what it held with this block's column minima. -/
theorem sout_B (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : ¬cond0_0 i) (hc1 : cond0_1 i) (hc2 : ¬cond0_2 i) (hc3 : cond0_3 i)
    (x0 : Vec F S1x2048x3 .f32) (x1 : Vec F S1x3x4096 .f32) (xo2 : Vec F S1x1 .f32) (xs0 : Vec F S1x4096 .f32) :
    sout0_B_0 c i arg2 harg2 arg3 harg3 arg4 harg4 arg5 harg5 hc0 hc1 hc2 hc3 x0 x1 xo2 xs0 = k0_pay2 (k0_pay7 x0 x1) xs0 := by
  unfold sout0_B_0
  rw [View.read_writes_eq_canon _ _ _ (scover0_B_0 c i arg2 harg2 arg3 harg3 arg4 harg4 arg5 harg5 hc0 hc1 hc2 hc3 x0 x1 xo2 xs0)]
  unfold kernelRun0_B
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x4096) hz2, View.ld_unit_zero (S := S1x1) hz2, View.readCov_unit_zero (S := S1x1) _ hz2, View.readCov_unit_zero (S := S1x4096) _ hz2]

/-- A later batch's first block: the accumulator ends at what it held plus the row block's part. -/
theorem out_C (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : ¬cond0_2 i) (hc3 : ¬cond0_3 i)
    (x0 : Vec F S1x2048x3 .f32) (x1 : Vec F S1x3x4096 .f32) (xo2 : Vec F S1x1 .f32) :
    out0_C_2 c i arg2 harg2 arg3 harg3 arg4 harg4 arg5 harg5 hc0 hc1 hc2 hc3 x0 x1 xo2 = k0_pay4 (k0_pay8 x0 x1) xo2 := by
  unfold out0_C_2
  rw [View.read_writes_eq_canon _ _ _ (cover0_C_2 c i arg2 harg2 arg3 harg3 arg4 harg4 arg5 harg5 hc0 hc1 hc2 hc3 x0 x1 xo2)]
  unfold kernelRun0_C
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x4096) hz2, View.ld_unit_zero (S := S1x1) hz2, View.readCov_unit_zero (S := S1x1) _ hz2, View.readCov_unit_zero (S := S1x4096) _ hz2]

/-- A later batch's first block: the column row is this block's column minima. -/
theorem sout_C (c : Dev nD) (i : grid0.Coords) (arg2 : Memref sig .tc .vmem S1x2048x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc0 : cond0_0 i) (hc1 : ¬cond0_1 i) (hc2 : ¬cond0_2 i) (hc3 : ¬cond0_3 i)
    (x0 : Vec F S1x2048x3 .f32) (x1 : Vec F S1x3x4096 .f32) (xo2 : Vec F S1x1 .f32) :
    sout0_C_0 c i arg2 harg2 arg3 harg3 arg4 harg4 arg5 harg5 hc0 hc1 hc2 hc3 x0 x1 xo2 = k0_pay1 (k0_pay7 x0 x1) := by
  unfold sout0_C_0
  rw [View.read_writes_eq_canon _ _ _ (scover0_C_0 c i arg2 harg2 arg3 harg3 arg4 harg4 arg5 harg5 hc0 hc1 hc2 hc3 x0 x1 xo2)]
  unfold kernelRun0_C
  dsimp only
  sl_unfold_words
  rw [View.canon_unit_zero hz2]
  simp only [View.readAt_eq_ld, harg2.read_unread, harg3.read_unread, harg4.read_unread, harg5.read_unread, View.ld_unit_zero (S := S1x2048x3) hz3, View.ld_unit_zero (S := S1x3x4096) hz3, View.ld_unit_zero (S := S1x4096) hz2, View.ld_unit_zero (S := S1x1) hz2, View.readCov_unit_zero (S := S1x1) _ hz2, View.readCov_unit_zero (S := S1x4096) _ hz2]

end Cert.KernelIdeal.Found

end
-- ==== Proof.Payload.lean ====
/-
  The body's arithmetic read one entry at a time, over the extended reals.

  From the two blocks it loads — 2048 points of the first cloud, and all 4096 points of the second cloud with the
  coordinate axis leading — the body forms the 2048 × 4096 table of unclamped squared distances by ONE product of depth
  seven: columns 0–2 carry -2·a against b, columns 3–4 carry ones against |b|² and its exact remainder, columns 5–6 carry
  |a|² and its exact remainder against ones. On finite numbers the remainders are zero and an entry is |a|² + |b|² - 2 a·b.
  The rest is minima along either axis of that table, a clamp at zero, square roots and sums.
-/
import proofs.«109187_g19164144075464_cont_8to1_1702_14_alg».proof.Proof.Gen.KernelIdeal.Skeleton
import proofs.«109187_g19164144075464_cont_8to1_1702_14_alg».proof.Proof.Spec
import proofs.«109187_g19164144075464_cont_8to1_1702_14_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.Chamfer

/-! ## The product's operand indices, axis by axis -/

private theorem lhs_row (i : S2048x4096.Idx) (c : dot_S2048x7_S7x4096_S2048x4096_1_0_0_1_n_n.contr.Idx) :
    (dot_S2048x7_S7x4096_S2048x4096_1_0_0_1_n_n.lhsIdx i c 0).val = (i 0).val := by
  unfold DotDims.lhsIdx
  rw [dif_neg (show ¬(0 : Fin S2048x7.rank) ∈ dot_S2048x7_S7x4096_S2048x4096_1_0_0_1_n_n.lhsBatch by decide), dif_pos (show (0 : Fin S2048x7.rank) ∈ dot_S2048x7_S7x4096_S2048x4096_1_0_0_1_n_n.lhsNonContracting by decide)]
  rfl
private theorem lhs_depth (i : S2048x4096.Idx) (c : dot_S2048x7_S7x4096_S2048x4096_1_0_0_1_n_n.contr.Idx) :
    (dot_S2048x7_S7x4096_S2048x4096_1_0_0_1_n_n.lhsIdx i c 1).val = (c ⟨0, by decide⟩).val :=
  dot_S2048x7_S7x4096_S2048x4096_1_0_0_1_n_n.lhsIdx_val_of_single rfl i c
private theorem rhs_depth (i : S2048x4096.Idx) (c : dot_S2048x7_S7x4096_S2048x4096_1_0_0_1_n_n.contr.Idx) :
    (dot_S2048x7_S7x4096_S2048x4096_1_0_0_1_n_n.rhsIdx i c 0).val = (c ⟨0, by decide⟩).val :=
  dot_S2048x7_S7x4096_S2048x4096_1_0_0_1_n_n.rhsIdx_val_of_single rfl i c
private theorem rhs_col (i : S2048x4096.Idx) (c : dot_S2048x7_S7x4096_S2048x4096_1_0_0_1_n_n.contr.Idx) :
    (dot_S2048x7_S7x4096_S2048x4096_1_0_0_1_n_n.rhsIdx i c 1).val = (i 1).val := by
  unfold DotDims.rhsIdx
  rw [dif_neg (show ¬(1 : Fin S7x4096.rank) ∈ dot_S2048x7_S7x4096_S2048x4096_1_0_0_1_n_n.rhsBatch by decide), dif_pos (show (1 : Fin S7x4096.rank) ∈ dot_S2048x7_S7x4096_S2048x4096_1_0_0_1_n_n.rhsNonContracting by decide)]
  rfl

/-- The product into the zero table, at entry (p, q): the sum over the seven depth positions of row p of the left
    operand against column q of the right. -/
private theorem prod_apply (A : FVec Ideal S2048x7 .bf16) (B : FVec Ideal S7x4096 .bf16) (p : Fin 2048) (q : Fin 4096) :
    FloatOps.matmul dot_S2048x7_S7x4096_S2048x4096_1_0_0_1_n_n none A B (constant (F := Ideal) S2048x4096 .f32 0x00000000#32) (ix2 p q)
      = ∑ k : Fin 7, A (ix2 p k) * B (ix2 k q) := by
  rw [Ideal.matmul_constant_zero_apply, ← Equiv.sum_comp (ValueIdx.contrEquiv1 dot_S2048x7_S7x4096_S2048x4096_1_0_0_1_n_n 7 rfl rfl).symm]
  refine Finset.sum_congr rfl fun k _ => ?_
  have hk := ValueIdx.contrEquiv1_symm_val dot_S2048x7_S7x4096_S2048x4096_1_0_0_1_n_n 7 rfl rfl k
  have el : dot_S2048x7_S7x4096_S2048x4096_1_0_0_1_n_n.lhsIdx (ix2 p q) ((ValueIdx.contrEquiv1 dot_S2048x7_S7x4096_S2048x4096_1_0_0_1_n_n 7 rfl rfl).symm k) = ix2 p k := funext fun a => Fin.ext (by
    match a with
    | ⟨0, _⟩ => exact lhs_row _ _
    | ⟨1, _⟩ => exact (lhs_depth _ _).trans hk)
  have er : dot_S2048x7_S7x4096_S2048x4096_1_0_0_1_n_n.rhsIdx (ix2 p q) ((ValueIdx.contrEquiv1 dot_S2048x7_S7x4096_S2048x4096_1_0_0_1_n_n 7 rfl rfl).symm k) = ix2 k q := funext fun a => Fin.ext (by
    match a with
    | ⟨0, _⟩ => exact (rhs_depth _ _).trans hk
    | ⟨1, _⟩ => exact rhs_col _ _)
  rw [el, er]

/-! ## Layout: the keepdims column, and the two squared norms -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The squared norm of point p of the first block, kept as a column: the sum of its three squared coordinates. -/
private theorem sqA_apply (x0 : FVec Ideal S1x2048x3 .f32) (p : Fin 2048) (u : Fin 1) :
    shapeCast S2048x1 (multiReduction (F := Ideal) .add [1] S2048
        (mulf (shapeCast S2048x3 x0 shapeCasts_S1x2048x3_S2048x3) (shapeCast S2048x3 x0 shapeCasts_S1x2048x3_S2048x3))
        0x00000000#32 reduces_S2048x3_S2048 (.inl rfl) rfl) shapeCasts_S2048_S2048x1 (ix2 p u)
      = ∑ k : Fin 3, x0 (ix3 (0 : Fin 1) p k) * x0 (ix3 (0 : Fin 1) p k) := by
  refine (shapeCast_a_a1_apply _ shapeCasts_S2048_S2048x1 p u).trans ?_
  refine (Ideal.multiReduction_add_single _ _ reduces_S2048x3_S2048 _ _ (ix1 p)).trans ?_
  refine Finset.sum_congr rfl fun (k : Fin 3) _ => ?_
  have e : reduces_S2048x3_S2048.lift (ix1 p) k = ix2 p k :=
    funext fun c => Fin.ext (by match c with | ⟨0, _⟩ => rfl | ⟨1, _⟩ => rfl)
  rw [e, mulf_apply, shapeCast_1ab_ab_apply]

/-- The squared norm of point q of the second block, kept as a row: the sum of its three squared coordinates. -/
private theorem sqB_apply (x1 : FVec Ideal S1x3x4096 .f32) (u : Fin 1) (q : Fin 4096) :
    shapeCast S1x4096 (multiReduction (F := Ideal) .add [0] S4096
        (mulf (shapeCast S3x4096 x1 shapeCasts_S1x3x4096_S3x4096) (shapeCast S3x4096 x1 shapeCasts_S1x3x4096_S3x4096))
        0x00000000#32 reduces_S3x4096_S4096 (.inl rfl) rfl) shapeCasts_S4096_S1x4096 (ix2 u q)
      = ∑ k : Fin 3, x1 (ix3 (0 : Fin 1) k q) * x1 (ix3 (0 : Fin 1) k q) := by
  refine (shapeCast_a_1a_apply _ shapeCasts_S4096_S1x4096 u q).trans ?_
  refine (Ideal.multiReduction_add_single _ _ reduces_S3x4096_S4096 _ _ (ix1 q)).trans ?_
  refine Finset.sum_congr rfl fun (k : Fin 3) _ => ?_
  have e : reduces_S3x4096_S4096.lift (ix1 q) k = ix2 k q :=
    funext fun c => Fin.ext (by match c with | ⟨0, _⟩ => rfl | ⟨1, _⟩ => rfl)
  rw [e, mulf_apply, shapeCast_1ab_ab_apply]

/-! ## The two operands of the product, column by column and row by row -/

/-- Columns 0–2 of the left operand are the first piece's. -/
private theorem lhs_piece0 (c3 : FVec Ideal S2048x3 .bf16) (o1 o2 n1 n2 : FVec Ideal S2048x1 .bf16) (p : Fin 2048)
    (k : Fin 3) (k' : Fin 7) (hk : k'.val = k.val) :
    concatenate S2048x7 1 [⟨S2048x3, c3⟩, ⟨S2048x1, o1⟩, ⟨S2048x1, o2⟩, ⟨S2048x1, n1⟩, ⟨S2048x1, n2⟩]
        concatenates_S2048x3_S2048x1_S2048x1_S2048x1_S2048x1_S2048x7_d1 (ix2 p k') = c3 (ix2 p k) :=
  concatenate_apply_piece 1 _ _ (ix2 p k') 0 (by show (0 : Nat) < 5; omega) S2048x3 c3 rfl rfl 0 rfl (ix2 p k)
    (fun b => match b with
      | ⟨0, _⟩ => fun _ => rfl
      | ⟨1, _⟩ => fun hb => absurd (Fin.ext rfl) hb)
    (by show 0 + k.val = k'.val; omega)

/-- Column 3 is the second piece's one column. -/
private theorem lhs_piece1 (c3 : FVec Ideal S2048x3 .bf16) (o1 o2 n1 n2 : FVec Ideal S2048x1 .bf16) (p : Fin 2048)
    (k' : Fin 7) (hk : k'.val = 3) :
    concatenate S2048x7 1 [⟨S2048x3, c3⟩, ⟨S2048x1, o1⟩, ⟨S2048x1, o2⟩, ⟨S2048x1, n1⟩, ⟨S2048x1, n2⟩]
        concatenates_S2048x3_S2048x1_S2048x1_S2048x1_S2048x1_S2048x7_d1 (ix2 p k') = o1 (ix2 p 0) :=
  concatenate_apply_piece 1 _ _ (ix2 p k') 1 (by show (1 : Nat) < 5; omega) S2048x1 o1 rfl rfl 3 rfl (ix2 p 0)
    (fun b => match b with
      | ⟨0, _⟩ => fun _ => rfl
      | ⟨1, _⟩ => fun hb => absurd (Fin.ext rfl) hb)
    (by show 3 + 0 = k'.val; omega)

/-- Column 4 is the third piece's. -/
private theorem lhs_piece2 (c3 : FVec Ideal S2048x3 .bf16) (o1 o2 n1 n2 : FVec Ideal S2048x1 .bf16) (p : Fin 2048)
    (k' : Fin 7) (hk : k'.val = 4) :
    concatenate S2048x7 1 [⟨S2048x3, c3⟩, ⟨S2048x1, o1⟩, ⟨S2048x1, o2⟩, ⟨S2048x1, n1⟩, ⟨S2048x1, n2⟩]
        concatenates_S2048x3_S2048x1_S2048x1_S2048x1_S2048x1_S2048x7_d1 (ix2 p k') = o2 (ix2 p 0) :=
  concatenate_apply_piece 1 _ _ (ix2 p k') 2 (by show (2 : Nat) < 5; omega) S2048x1 o2 rfl rfl 4 rfl (ix2 p 0)
    (fun b => match b with
      | ⟨0, _⟩ => fun _ => rfl
      | ⟨1, _⟩ => fun hb => absurd (Fin.ext rfl) hb)
    (by show 4 + 0 = k'.val; omega)

/-- Column 5 is the fourth piece's. -/
private theorem lhs_piece3 (c3 : FVec Ideal S2048x3 .bf16) (o1 o2 n1 n2 : FVec Ideal S2048x1 .bf16) (p : Fin 2048)
    (k' : Fin 7) (hk : k'.val = 5) :
    concatenate S2048x7 1 [⟨S2048x3, c3⟩, ⟨S2048x1, o1⟩, ⟨S2048x1, o2⟩, ⟨S2048x1, n1⟩, ⟨S2048x1, n2⟩]
        concatenates_S2048x3_S2048x1_S2048x1_S2048x1_S2048x1_S2048x7_d1 (ix2 p k') = n1 (ix2 p 0) :=
  concatenate_apply_piece 1 _ _ (ix2 p k') 3 (by show (3 : Nat) < 5; omega) S2048x1 n1 rfl rfl 5 rfl (ix2 p 0)
    (fun b => match b with
      | ⟨0, _⟩ => fun _ => rfl
      | ⟨1, _⟩ => fun hb => absurd (Fin.ext rfl) hb)
    (by show 5 + 0 = k'.val; omega)

/-- Column 6 is the fifth piece's. -/
private theorem lhs_piece4 (c3 : FVec Ideal S2048x3 .bf16) (o1 o2 n1 n2 : FVec Ideal S2048x1 .bf16) (p : Fin 2048)
    (k' : Fin 7) (hk : k'.val = 6) :
    concatenate S2048x7 1 [⟨S2048x3, c3⟩, ⟨S2048x1, o1⟩, ⟨S2048x1, o2⟩, ⟨S2048x1, n1⟩, ⟨S2048x1, n2⟩]
        concatenates_S2048x3_S2048x1_S2048x1_S2048x1_S2048x1_S2048x7_d1 (ix2 p k') = n2 (ix2 p 0) :=
  concatenate_apply_piece 1 _ _ (ix2 p k') 4 (by show (4 : Nat) < 5; omega) S2048x1 n2 rfl rfl 6 rfl (ix2 p 0)
    (fun b => match b with
      | ⟨0, _⟩ => fun _ => rfl
      | ⟨1, _⟩ => fun hb => absurd (Fin.ext rfl) hb)
    (by show 6 + 0 = k'.val; omega)

/-- Rows 0–2 of the right operand are the first piece's. -/
private theorem rhs_piece0 (r3 : FVec Ideal S3x4096 .bf16) (m1 m2 : FVec Ideal S1x4096 .bf16) (o : FVec Ideal S2x4096 .bf16)
    (q : Fin 4096) (k : Fin 3) (k' : Fin 7) (hk : k'.val = k.val) :
    concatenate S7x4096 0 [⟨S3x4096, r3⟩, ⟨S1x4096, m1⟩, ⟨S1x4096, m2⟩, ⟨S2x4096, o⟩]
        concatenates_S3x4096_S1x4096_S1x4096_S2x4096_S7x4096_d0 (ix2 k' q) = r3 (ix2 k q) :=
  concatenate_apply_piece 0 _ _ (ix2 k' q) 0 (by show (0 : Nat) < 4; omega) S3x4096 r3 rfl rfl 0 rfl (ix2 k q)
    (fun b => match b with
      | ⟨0, _⟩ => fun hb => absurd (Fin.ext rfl) hb
      | ⟨1, _⟩ => fun _ => rfl)
    (by show 0 + k.val = k'.val; omega)

/-- Row 3 is the second piece's one row. -/
private theorem rhs_piece1 (r3 : FVec Ideal S3x4096 .bf16) (m1 m2 : FVec Ideal S1x4096 .bf16) (o : FVec Ideal S2x4096 .bf16)
    (q : Fin 4096) (k' : Fin 7) (hk : k'.val = 3) :
    concatenate S7x4096 0 [⟨S3x4096, r3⟩, ⟨S1x4096, m1⟩, ⟨S1x4096, m2⟩, ⟨S2x4096, o⟩]
        concatenates_S3x4096_S1x4096_S1x4096_S2x4096_S7x4096_d0 (ix2 k' q) = m1 (ix2 0 q) :=
  concatenate_apply_piece 0 _ _ (ix2 k' q) 1 (by show (1 : Nat) < 4; omega) S1x4096 m1 rfl rfl 3 rfl (ix2 0 q)
    (fun b => match b with
      | ⟨0, _⟩ => fun hb => absurd (Fin.ext rfl) hb
      | ⟨1, _⟩ => fun _ => rfl)
    (by show 3 + 0 = k'.val; omega)

/-- Row 4 is the third piece's. -/
private theorem rhs_piece2 (r3 : FVec Ideal S3x4096 .bf16) (m1 m2 : FVec Ideal S1x4096 .bf16) (o : FVec Ideal S2x4096 .bf16)
    (q : Fin 4096) (k' : Fin 7) (hk : k'.val = 4) :
    concatenate S7x4096 0 [⟨S3x4096, r3⟩, ⟨S1x4096, m1⟩, ⟨S1x4096, m2⟩, ⟨S2x4096, o⟩]
        concatenates_S3x4096_S1x4096_S1x4096_S2x4096_S7x4096_d0 (ix2 k' q) = m2 (ix2 0 q) :=
  concatenate_apply_piece 0 _ _ (ix2 k' q) 2 (by show (2 : Nat) < 4; omega) S1x4096 m2 rfl rfl 4 rfl (ix2 0 q)
    (fun b => match b with
      | ⟨0, _⟩ => fun hb => absurd (Fin.ext rfl) hb
      | ⟨1, _⟩ => fun _ => rfl)
    (by show 4 + 0 = k'.val; omega)

/-- Rows 5 and 6 are the fourth piece's two rows. -/
private theorem rhs_piece3 (r3 : FVec Ideal S3x4096 .bf16) (m1 m2 : FVec Ideal S1x4096 .bf16) (o : FVec Ideal S2x4096 .bf16)
    (q : Fin 4096) (k : Fin 2) (k' : Fin 7) (hk : k'.val = 5 + k.val) :
    concatenate S7x4096 0 [⟨S3x4096, r3⟩, ⟨S1x4096, m1⟩, ⟨S1x4096, m2⟩, ⟨S2x4096, o⟩]
        concatenates_S3x4096_S1x4096_S1x4096_S2x4096_S7x4096_d0 (ix2 k' q) = o (ix2 k q) :=
  concatenate_apply_piece 0 _ _ (ix2 k' q) 3 (by show (3 : Nat) < 4; omega) S2x4096 o rfl rfl 5 rfl (ix2 k q)
    (fun b => match b with
      | ⟨0, _⟩ => fun hb => absurd (Fin.ext rfl) hb
      | ⟨1, _⟩ => fun _ => rfl)
    (by show 5 + k.val = k'.val; omega)

/-- One entry of a block's table of unclamped squared distances, from the two loaded blocks. -/
def blkD (x0 : FVec Ideal S1x2048x3 .f32) (x1 : FVec Ideal S1x3x4096 .f32) (p : Fin 2048) (q : Fin 4096) : EReal :=
  ((∑ k : Fin 3, x0 (ix3 (0 : Fin 1) p k) * x0 (ix3 (0 : Fin 1) p k))
      + ∑ k : Fin 3, x1 (ix3 (0 : Fin 1) k q) * x1 (ix3 (0 : Fin 1) k q))
    - ((2 : ℝ) : EReal) * ∑ k : Fin 3, x0 (ix3 (0 : Fin 1) p k) * x1 (ix3 (0 : Fin 1) k q)

/-- The depth-seven product at entry (p, q), on finite blocks. -/
theorem pay6_apply (x0 : FVec Ideal S1x2048x3 .f32) (x1 : FVec Ideal S1x3x4096 .f32)
    (h0 : ∀ i, ∃ r : ℝ, x0 i = r) (h1 : ∀ i, ∃ r : ℝ, x1 i = r) (p : Fin 2048) (q : Fin 4096) :
    k0_pay6 (F := Ideal) x0 x1 (ix2 p q) = blkD x0 x1 p q := by
  -- the closing identity over the extended reals, at the two points' coordinates
  have key := ext_dot (fun k => x0 (ix3 (0 : Fin 1) p k)) (fun k => x1 (ix3 (0 : Fin 1) k q)) (fun k => h0 _) (fun k => h1 _)
  unfold k0_pay6
  -- the entry is the sum over the seven depth positions
  refine (prod_apply _ _ p q).trans ?_
  rw [Fin.sum_univ_seven]
  -- each of the fourteen factors is read from the piece that holds it
  rw [lhs_piece0 _ _ _ _ _ p 0 0 rfl, lhs_piece0 _ _ _ _ _ p 1 1 rfl, lhs_piece0 _ _ _ _ _ p 2 2 rfl,
    lhs_piece1 _ _ _ _ _ p 3 rfl, lhs_piece2 _ _ _ _ _ p 4 rfl, lhs_piece3 _ _ _ _ _ p 5 rfl, lhs_piece4 _ _ _ _ _ p 6 rfl,
    rhs_piece0 _ _ _ _ q 0 0 rfl, rhs_piece0 _ _ _ _ q 1 1 rfl, rhs_piece0 _ _ _ _ q 2 2 rfl,
    rhs_piece1 _ _ _ _ q 3 rfl, rhs_piece2 _ _ _ _ q 4 rfl, rhs_piece3 _ _ _ _ q 0 5 rfl, rhs_piece3 _ _ _ _ q 1 6 rfl]
  -- the pointwise operations, the two squared norms, the loaded blocks and the two literals
  simp only [truncf_apply, mulf_apply, subf_apply, broadcast_apply, Ideal.ofBits_def]
  rw [sqA_apply, sqB_apply]
  simp only [shapeCast_1ab_ab_apply, Consts.neg_two_f32, Consts.one_bf16]
  exact key

end Cert.KernelIdeal.Payload

end
-- ==== Proof.PayloadRest.lean ====
/-
  The body's other payloads read one entry at a time, over the extended reals: the minima of the distance table along
  either axis (started from +∞), the clamp at zero, the square roots and the sums that feed the (1,1) accumulator, and
  the fold of the running column minima.
-/
import proofs.«109187_g19164144075464_cont_8to1_1702_14_alg».proof.Proof.Gen.KernelIdeal.Skeleton
import proofs.«109187_g19164144075464_cont_8to1_1702_14_alg».proof.Proof.Spec
import proofs.«109187_g19164144075464_cont_8to1_1702_14_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayloadRest

open Cert.KernelIdeal Cert.KernelIdeal.Gen Cert.Chamfer

/-! ## Steps shared by the payloads -/

/-- A minimum reduction along ONE axis, over the extended reals: the fold of `min` from the accumulator's value over that
    axis's coordinates. -/
private theorem minReduction_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    Idealize.ShloMosaic.multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the rows of a table, started from +∞, at column q. -/
private theorem colMin_apply {m n : ℕ} (T : FVec Ideal ⟨2, ![m, n]⟩ .f32)
    (h : (⟨2, ![m, n]⟩ : Shape).Reduces [0] ⟨1, ![n]⟩) (hφ : FKind.Formats .f32)
    (hacc : (0x7F800000#32 : BitVec 32) = FKind.minimumf.neutral .f32 hφ) (q : Fin n) :
    Idealize.ShloMosaic.multiReduction .minimumf [0] ⟨1, ![n]⟩ T 0x7F800000#32 h hφ hacc (ix1 q)
      = mn fun p : Fin m => T (ix2 p q) := by
  refine (minReduction_single T _ h hφ hacc (ix1 q)).trans ?_
  have hf : (T ∘ h.lift (ix1 q)) = fun p : Fin m => T (ix2 p q) :=
    funext fun p => congrArg T (funext fun c => Fin.ext (match c with | ⟨0, _⟩ => rfl | ⟨1, _⟩ => rfl))
  exact congrArg₂ (fun b f => Finset.fold min b f (Finset.univ : Finset (Fin m))) Consts.top_f32 hf

/-- The minimum over the columns of a table, started from +∞, at row p. -/
private theorem rowMin_apply {m n : ℕ} (T : FVec Ideal ⟨2, ![m, n]⟩ .f32)
    (h : (⟨2, ![m, n]⟩ : Shape).Reduces [1] ⟨1, ![m]⟩) (hφ : FKind.Formats .f32)
    (hacc : (0x7F800000#32 : BitVec 32) = FKind.minimumf.neutral .f32 hφ) (p : Fin m) :
    Idealize.ShloMosaic.multiReduction .minimumf [1] ⟨1, ![m]⟩ T 0x7F800000#32 h hφ hacc (ix1 p)
      = mn fun q : Fin n => T (ix2 p q) := by
  refine (minReduction_single T _ h hφ hacc (ix1 p)).trans ?_
  have hf : (T ∘ h.lift (ix1 p)) = fun q : Fin n => T (ix2 p q) :=
    funext fun q => congrArg T (funext fun c => Fin.ext (match c with | ⟨0, _⟩ => rfl | ⟨1, _⟩ => rfl))
  exact congrArg₂ (fun b f => Finset.fold min b f (Finset.univ : Finset (Fin n))) Consts.top_f32 hf

/-- A vector cast to a column: entry (i, 0) of the column is entry i of the vector. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, a, 1] array is (0, p, 0) for its middle coordinate p. -/
private theorem idx_1a1_eq {a : ℕ} (i : (⟨3, ![1, a, 1]⟩ : Shape).Idx) : ix3 (0 : Fin 1) (i 1) (0 : Fin 1) = i := by
  funext c
  match c with
  | ⟨0, hc⟩ =>
    exact Fin.ext (by have h : (i ⟨0, hc⟩).val < 1 := (i ⟨0, hc⟩).isLt; show 0 = (i ⟨0, hc⟩).val; omega)
  | ⟨1, _⟩ => rfl
  | ⟨2, hc⟩ =>
    exact Fin.ext (by have h : (i ⟨2, hc⟩).val < 1 := (i ⟨2, hc⟩).isLt; show 0 = (i ⟨2, hc⟩).val; omega)

/-- The indices of a [1, a, 1] array are its middle coordinates. -/
private def idxEquiv_1a1 (a : ℕ) : (⟨3, ![1, a, 1]⟩ : Shape).Idx ≃ Fin a where
  toFun i := i 1
  invFun p := ix3 (0 : Fin 1) p (0 : Fin 1)
  left_inv := idx_1a1_eq
  right_inv _ := rfl

/-- So a sum over all its entries is the sum along the middle axis. -/
private theorem sum_idx_1a1 {a : ℕ} (f : (⟨3, ![1, a, 1]⟩ : Shape).Idx → EReal) :
    ∑ i, f i = ∑ p : Fin a, f (ix3 (0 : Fin 1) p (0 : Fin 1)) :=
  Fintype.sum_equiv (idxEquiv_1a1 a) _ _ fun i => congrArg f (idx_1a1_eq i).symm

/-- Every index of a [1, 1, a] array is (0, 0, q) for its last coordinate q. -/
private theorem idx_11a_eq {a : ℕ} (i : (⟨3, ![1, 1, a]⟩ : Shape).Idx) : ix3 (0 : Fin 1) (0 : Fin 1) (i 2) = i := by
  funext c
  match c with
  | ⟨0, hc⟩ =>
    exact Fin.ext (by have h : (i ⟨0, hc⟩).val < 1 := (i ⟨0, hc⟩).isLt; show 0 = (i ⟨0, hc⟩).val; omega)
  | ⟨1, hc⟩ =>
    exact Fin.ext (by have h : (i ⟨1, hc⟩).val < 1 := (i ⟨1, hc⟩).isLt; show 0 = (i ⟨1, hc⟩).val; omega)
  | ⟨2, _⟩ => rfl

/-- The indices of a [1, 1, a] array are its last coordinates. -/
private def idxEquiv_11a (a : ℕ) : (⟨3, ![1, 1, a]⟩ : Shape).Idx ≃ Fin a where
  toFun i := i 2
  invFun q := ix3 (0 : Fin 1) (0 : Fin 1) q
  left_inv := idx_11a_eq
  right_inv _ := rfl

/-- So a sum over all its entries is the sum along the last axis. -/
private theorem sum_idx_11a {a : ℕ} (f : (⟨3, ![1, 1, a]⟩ : Shape).Idx → EReal) :
    ∑ i, f i = ∑ q : Fin a, f (ix3 (0 : Fin 1) (0 : Fin 1) q) :=
  Fintype.sum_equiv (idxEquiv_11a a) _ _ fun i => congrArg f (idx_11a_eq i).symm

/-- A one-entry vector whose entry is c, cast to [1, 1, 1], read at the origin and spread over a (1,1) array: every entry is c. -/
private theorem spread_of_const {α : Type} (x : S1.Idx → α) (h : S1.ShapeCasts S1x1x1)
    (hp : ∀ a, (![0, 0, 0] : Fin 3 → ℕ) a < S1x1x1.size a) (c : α) (hx : ∀ k, x k = c) (j : S1x1.Idx) :
    broadcast S1x1 (extractAt ![0, 0, 0] (shapeCast S1x1x1 x h) hp) j = c := by
  unfold broadcast extractAt shapeCast
  exact hx _

/-- Every axis of the one-entry shape has size one. -/
private theorem S1_size_one (b : Fin S1.rank) : S1.size b = 1 := by
  match b with
  | ⟨0, _⟩ => rfl

/-- The square root of a vector, read at an index. -/
private theorem sqrt_apply {s : Shape} {φ : FTy} (x : FVec Ideal s φ) (i : s.Idx) : sqrt x i = Ideal.sqrt (x i) := rfl

/-- The block's column minima: entry q is the minimum over the block's rows. -/
theorem pay7_apply (x0 : FVec Ideal S1x2048x3 .f32) (x1 : FVec Ideal S1x3x4096 .f32) (q : Fin 4096) :
    k0_pay7 (F := Ideal) x0 x1 (ix2 (0 : Fin 1) q) = mn fun p : Fin 2048 => k0_pay6 (F := Ideal) x0 x1 (ix2 p q) := by
  unfold k0_pay7
  refine (shapeCast_a_1a_apply _ _ (0 : Fin 1) q).trans ?_
  exact colMin_apply (k0_pay6 (F := Ideal) x0 x1) _ _ _ q

/-- The row block's part: the sum over its rows of the root of the clamped row minimum. -/
theorem pay8_apply (x0 : FVec Ideal S1x2048x3 .f32) (x1 : FVec Ideal S1x3x4096 .f32) (j : S1x1.Idx) :
    k0_pay8 (F := Ideal) x0 x1 j
      = ∑ p : Fin 2048, Ideal.sqrt (max (mn fun q : Fin 4096 => k0_pay6 (F := Ideal) x0 x1 (ix2 p q)) 0) := by
  unfold k0_pay8
  refine spread_of_const _ _ _ _ (fun k => ?_) j
  refine (Ideal.multiReduction_add_total _ _ _ S1_size_one _ _ k).trans ?_
  refine (sum_idx_1a1 _).trans ?_
  refine Finset.sum_congr rfl fun p _ => ?_
  refine (shapeCast_ab_1ab_apply _ _ (0 : Fin 1) p (0 : Fin 1)).trans ?_
  refine (sqrt_apply _ _).trans (congrArg Ideal.sqrt ?_)
  refine (maximumf_apply _ _ _).trans (congrArg₂ max ?_ Consts.zero_f32)
  refine (shapeCast_a_a1_apply _ _ p (0 : Fin 1)).trans ?_
  exact rowMin_apply (k0_pay6 (F := Ideal) x0 x1) _ _ _ p

/-- The column row's part added to the accumulator. -/
theorem pay5_apply (v57 : FVec Ideal S1x4096 .f32) (v60 : FVec Ideal S1x1 .f32) (j : S1x1.Idx) :
    k0_pay5 (F := Ideal) v57 v60 j = v60 j + ∑ q : Fin 4096, Ideal.sqrt (max (v57 (ix2 (0 : Fin 1) q)) 0) := by
  unfold k0_pay5
  refine (addf_apply _ _ j).trans (congrArg₂ (· + ·) (congrFun (shapeCast_self v60 _) j) ?_)
  refine spread_of_const _ _ _ _ (fun k => ?_) j
  refine (Ideal.multiReduction_add_total _ _ _ S1_size_one _ _ k).trans ?_
  refine (sum_idx_11a _).trans ?_
  refine Finset.sum_congr rfl fun q _ => ?_
  refine (shapeCast_ab_1ab_apply _ _ (0 : Fin 1) (0 : Fin 1) q).trans ?_
  refine (sqrt_apply _ _).trans (congrArg Ideal.sqrt ?_)
  exact (maximumf_apply _ _ _).trans (congrArg₂ max rfl Consts.zero_f32)

theorem pay4_apply (v38 : FVec Ideal S1x1 .f32) (v50 : FVec Ideal S1x1 .f32) (j : S1x1.Idx) :
    k0_pay4 (F := Ideal) v38 v50 j = v50 j + v38 j := by
  unfold k0_pay4
  rw [shapeCast_self]
  rfl

theorem pay3_apply (j : S1x1.Idx) : k0_pay3 (F := Ideal) j = 0 := by
  unfold k0_pay3
  exact Consts.zero_f32

theorem pay2_apply (v30 : FVec Ideal S1x4096 .f32) (v57 : FVec Ideal S1x4096 .f32) (j : S1x4096.Idx) :
    k0_pay2 (F := Ideal) v30 v57 j = min (v57 j) (v30 j) := by
  unfold k0_pay2
  rw [shapeCast_self]
  rfl

theorem pay1_eq (v30 : FVec Ideal S1x4096 .f32) : k0_pay1 (F := Ideal) v30 = v30 := by
  unfold k0_pay1
  exact shapeCast_self _ _

end Cert.KernelIdeal.PayloadRest

end
-- ==== Proof.Blocks.lean ====
/-
  The two windows' blocks as pieces of the argument arrays.

  Grid point t = 2 b + nb stages rows nb·2048 … nb·2048 + 2047 of batch b of the first cloud, and the whole of batch b
  of the second cloud after the host has moved its coordinate axis in front of its point axis: entry (k, q) of that
  block is coordinate k of point q.
-/
import proofs.«109187_g19164144075464_cont_8to1_1702_14_alg».proof.Proof.Gen.KernelIdeal.Frame
import proofs.«109187_g19164144075464_cont_8to1_1702_14_alg».proof.Proof.Spec
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.Chamfer

variable {F : FTy → Type} [FloatOps F]
variable (m : (ℓ : Loc nD τ sig) → Buf (Elt F) ℓ)

/-- The first cloud's block at a point, at its literal type. -/
abbrev ablk (c : Dev nD) (t : Fin cfg0.N) : FVec F S1x2048x3 .f32 := iblk m c 0 t
/-- The second cloud's (transposed) block at a point, at its literal type. -/
abbrev bblk (c : Dev nD) (t : Fin cfg0.N) : FVec F S1x3x4096 .f32 := iblk m c 1 t
/-- The two argument arrays at their literal type. -/
abbrev arrA (c : Dev nD) : FVec F S4x4096x3 .f32 := m ((c : Thread nD τ).loc main_arg0)
abbrev arrB (c : Dev nD) : FVec F S4x4096x3 .f32 := m ((c : Thread nD τ).loc main_arg1)

/-- The first window's index map over the grid: point t = 2 b + nb stages block (b, nb, 0). -/
private theorem idx_first : ∀ t : Fin cfg0.N,
    win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)

/-- The second window's index map over the grid: point t = 2 b + nb stages block (b, 0, 0). -/
private theorem idx_second : ∀ t : Fin cfg0.N,
    win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)

theorem ablk_apply (c : Dev nD) (t : Fin cfg0.N) (b : Fin 4) (nb : Fin 2) (ht : t.val = 2 * b.val + nb.val)
    (p : Fin 2048) (k : Fin 3) :
    ablk m c t (ix3 (0 : Fin 1) p k) = arrA m c (ix3 b (rowIdx nb p) k) := by
  have hN : cfg0.N = 8 := N_0
  have hb := b.isLt
  have hnb := nb.isLt
  obtain ⟨h0, h1, h2⟩ := idx_first t
  show iblk m c 0 t _ = _
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [h0]; omega
  | ⟨1, _⟩ => show win0_0.index t 1 * 2048 + 1 * p.val = nb.val * 2048 + p.val; rw [h1]; omega
  | ⟨2, _⟩ => show win0_0.index t 2 * 3 + 1 * k.val = k.val; rw [h2]; omega

/-- The second window's array as the region finds it: the host's transpose of the second cloud, coordinate axis in
    front of the point axis. -/
private theorem V_transposed (c : Dev nD) :
    (V m c main_v0 : S4x3x4096.Idx → Elt F .f32)
      = transpose S4x3x4096 [0, 2, 1] (m ((c : Thread nD τ).loc main_arg1)) Facts₀.transposes_S4x4096x3_S4x3x4096_0_2_1 := by
  show StableHlo.after hostOps0 (fun b => m (c, b)) (Proc.devRef .tc main_v0) = _
  after_results

theorem bblk_apply (c : Dev nD) (t : Fin cfg0.N) (b : Fin 4) (nb : Fin 2) (ht : t.val = 2 * b.val + nb.val)
    (k : Fin 3) (q : Fin 4096) :
    bblk m c t (ix3 (0 : Fin 1) k q) = arrB m c (ix3 b q k) := by
  have hN : cfg0.N = 8 := N_0
  have hb := b.isLt
  have hnb := nb.isLt
  obtain ⟨h0, h1, h2⟩ := idx_second t
  show iblk m c 1 t _ = _
  unfold iblk
  rw [View.read_apply]
  show V m c main_v0 _ = m (c.tc.loc main_arg1) _
  rw [V_transposed]
  -- the transpose reads the second cloud with the last two coordinates exchanged
  refine transpose_apply (s := S4x4096x3) (t := S4x3x4096) [0, 2, 1] _ _ _ (ix3 b q k) (fun a => ?_)
  match a with
  | ⟨0, _⟩ => show b.val = win0_1.index t 0 * 1 + 1 * 0; rw [h0]; omega
  | ⟨1, _⟩ => show k.val = win0_1.index t 1 * 3 + 1 * k.val; rw [h1]; omega
  | ⟨2, _⟩ => show q.val = win0_1.index t 2 * 4096 + 1 * q.val; rw [h2]; omega

end Cert.KernelIdeal.Blocks

end
-- ==== Proof.KernelValue.lean ====
/-
  The kernel's result, read off its run.

  The grid's eight points are t = 2 b + nb: batch b, row block nb. Between points the body keeps the (1,1) accumulator and
  the row of running column minima. By induction on the point, after point t the accumulator holds the sum of the
  contributions of the points 0 … t (a row block's part, and after a batch's second block the batch's column part as well),
  and the column row holds the minima of the first block (after a first block) or of both blocks (after a second one).
  After the last point the accumulator, the sum of all eight contributions, is written back once to the (1,1) result
  array; the host then reshapes it to a scalar and divides by 32768. The eight contributions add up to the two sums of
  roots of the specification, so the scalar is the loss.
-/
import proofs.«109187_g19164144075464_cont_8to1_1702_14_alg».proof.Proof.Pieces
import proofs.«109187_g19164144075464_cont_8to1_1702_14_alg».proof.Proof.Payload
import proofs.«109187_g19164144075464_cont_8to1_1702_14_alg».proof.Proof.PayloadRest
import proofs.«109187_g19164144075464_cont_8to1_1702_14_alg».proof.Proof.Blocks
import proofs.«109187_g19164144075464_cont_8to1_1702_14_alg».proof.Proof.Spec
import proofs.«109187_g19164144075464_cont_8to1_1702_14_alg».proof.Proof.Consts
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Chamfer Cert.KernelIdeal.Blocks Cert.KernelIdeal.Found
open Cert.KernelIdeal.Payload Cert.KernelIdeal.PayloadRest

variable (m : (ℓ : Loc nD τ sig) → Buf (Elt Ideal) ℓ) (ρ : Dev nD → PrngReg)

/-- The batch of grid point n. -/
def bOf (n : ℕ) : Fin 4 := ⟨n / 2 % 4, Nat.mod_lt _ (by decide)⟩
/-- The row block of grid point n. -/
def nbOf (n : ℕ) : Fin 2 := ⟨n % 2, Nat.mod_lt _ (by decide)⟩

theorem point_eq (n : ℕ) (hn : n < cfg0.N) : (⟨n, hn⟩ : Fin cfg0.N).val = 2 * (bOf n).val + (nbOf n).val := by
  have hN : cfg0.N = 8 := N_0
  simp only [bOf, nbOf]; omega

/-! ## A point's blocks in terms of the clouds -/

theorem ablk_fin (hA : ∀ c i, ∃ r : ℝ, arrA m c i = r) (c : Dev nD) (n : ℕ) (hn : n < cfg0.N) :
    ∀ i, ∃ r : ℝ, ablk m c ⟨n, hn⟩ i = r := by
  intro i
  obtain ⟨z, p, k, rfl⟩ : ∃ (z : Fin 1) (p : Fin 2048) (k : Fin 3), i = ix3 z p k := ⟨i 0, i 1, i 2, eq_ix3 i⟩
  obtain rfl : z = 0 := Subsingleton.elim _ _
  rw [ablk_apply m c _ (bOf n) (nbOf n) (point_eq n hn)]
  exact hA c _

theorem bblk_fin (hB : ∀ c i, ∃ r : ℝ, arrB m c i = r) (c : Dev nD) (n : ℕ) (hn : n < cfg0.N) :
    ∀ i, ∃ r : ℝ, bblk m c ⟨n, hn⟩ i = r := by
  intro i
  obtain ⟨z, k, q, rfl⟩ : ∃ (z : Fin 1) (k : Fin 3) (q : Fin 4096), i = ix3 z k q := ⟨i 0, i 1, i 2, eq_ix3 i⟩
  obtain rfl : z = 0 := Subsingleton.elim _ _
  rw [bblk_apply m c _ (bOf n) (nbOf n) (point_eq n hn)]
  exact hB c _

/-- A point's distance table is the clouds' unclamped squared distances, rows nb·2048 + p of batch b. -/
theorem table_eq (hA : ∀ c i, ∃ r : ℝ, arrA m c i = r) (hB : ∀ c i, ∃ r : ℝ, arrB m c i = r)
    (c : Dev nD) (n : ℕ) (hn : n < cfg0.N) (p : Fin 2048) (q : Fin 4096) :
    k0_pay6 (F := Ideal) (ablk m c ⟨n, hn⟩) (bblk m c ⟨n, hn⟩) (ix2 p q)
      = dpre (arrA m c) (arrB m c) (bOf n) (rowIdx (nbOf n) p) q := by
  rw [pay6_apply _ _ (ablk_fin m hA c n hn) (bblk_fin m hB c n hn)]
  unfold blkD dpre nrm dotp
  simp only [ablk_apply m c _ (bOf n) (nbOf n) (point_eq n hn), bblk_apply m c _ (bOf n) (nbOf n) (point_eq n hn)]

theorem part_eq (hA : ∀ c i, ∃ r : ℝ, arrA m c i = r) (hB : ∀ c i, ∃ r : ℝ, arrB m c i = r)
    (c : Dev nD) (n : ℕ) (hn : n < cfg0.N) (j : S1x1.Idx) :
    k0_pay8 (F := Ideal) (ablk m c ⟨n, hn⟩) (bblk m c ⟨n, hn⟩) j = partialRow (arrA m c) (arrB m c) (bOf n) (nbOf n) := by
  rw [pay8_apply]
  unfold partialRow
  simp only [table_eq m hA hB c n hn]

theorem cmin_eq (hA : ∀ c i, ∃ r : ℝ, arrA m c i = r) (hB : ∀ c i, ∃ r : ℝ, arrB m c i = r)
    (c : Dev nD) (n : ℕ) (hn : n < cfg0.N) (q : Fin 4096) :
    k0_pay7 (F := Ideal) (ablk m c ⟨n, hn⟩) (bblk m c ⟨n, hn⟩) (ix2 (0 : Fin 1) q)
      = colBlk (arrA m c) (arrB m c) (bOf n) (nbOf n) q := by
  rw [pay7_apply]
  unfold colBlk
  simp only [table_eq m hA hB c n hn]

/-! ## What the two carried buffers hold after each point, by the point's case -/

theorem at_first (c : Dev nD) (hn : 0 < cfg0.N) :
    outsAt0 m c 0 hn
      = (k0_pay4 (k0_pay8 (ablk m c ⟨0, hn⟩) (bblk m c ⟨0, hn⟩)) (k0_pay3 (F := Ideal)),
         k0_pay1 (k0_pay7 (ablk m c ⟨0, hn⟩) (bblk m c ⟨0, hn⟩))) := by
  have h0 : (⟨0, hn⟩ : Fin cfg0.N).val % 2 = 0 := rfl
  have h1 : ¬(⟨0, hn⟩ : Fin cfg0.N).val % 2 = 1 := by dsimp only; omega
  have h2 : (⟨0, hn⟩ : Fin cfg0.N).val % 8 = 0 := rfl
  refine (outsAt0_A m c ⟨0, hn⟩ h0 h1 h2 h1).trans ?_
  exact congrArg₂ Prod.mk
    (out_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 _).mpr h0) (fun h => h1 ((hcond0_1 _).mp h)) ((hcond0_2 _).mpr h2) (fun h => h1 ((hcond0_3 _).mp h)) (iblk m c 0 ⟨0, hn⟩) (iblk m c 1 ⟨0, hn⟩))
    (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 _).mpr h0) (fun h => h1 ((hcond0_1 _).mp h)) ((hcond0_2 _).mpr h2) (fun h => h1 ((hcond0_3 _).mp h)) (iblk m c 0 ⟨0, hn⟩) (iblk m c 1 ⟨0, hn⟩))

theorem at_even (c : Dev nD) (n : ℕ) (hn : n + 1 < cfg0.N) (he : (n + 1) % 2 = 0) :
    outsAt0 m c (n + 1) hn
      = (k0_pay4 (k0_pay8 (ablk m c ⟨n + 1, hn⟩) (bblk m c ⟨n + 1, hn⟩)) (outsAt0 m c n (Nat.lt_of_succ_lt hn)).1,
         k0_pay1 (k0_pay7 (ablk m c ⟨n + 1, hn⟩) (bblk m c ⟨n + 1, hn⟩))) := by
  have hN : cfg0.N = 8 := N_0
  have h0 : (⟨n + 1, hn⟩ : Fin cfg0.N).val % 2 = 0 := he
  have h1 : ¬(⟨n + 1, hn⟩ : Fin cfg0.N).val % 2 = 1 := by dsimp only; omega
  have h2 : ¬(⟨n + 1, hn⟩ : Fin cfg0.N).val % 8 = 0 := by dsimp only; omega
  refine (outsAt0_C m c ⟨n + 1, hn⟩ h0 h1 h2 h1).trans ?_
  exact congrArg₂ Prod.mk
    (out_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 _).mpr h0) (fun h => h1 ((hcond0_1 _).mp h)) (fun h => h2 ((hcond0_2 _).mp h)) (fun h => h1 ((hcond0_3 _).mp h)) (iblk m c 0 ⟨n + 1, hn⟩) (iblk m c 1 ⟨n + 1, hn⟩) (outsAt0 m c n (Nat.lt_of_succ_lt hn)).1)
    (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 _).mpr h0) (fun h => h1 ((hcond0_1 _).mp h)) (fun h => h2 ((hcond0_2 _).mp h)) (fun h => h1 ((hcond0_3 _).mp h)) (iblk m c 0 ⟨n + 1, hn⟩) (iblk m c 1 ⟨n + 1, hn⟩) (outsAt0 m c n (Nat.lt_of_succ_lt hn)).1)

theorem at_odd (c : Dev nD) (n : ℕ) (hn : n + 1 < cfg0.N) (ho : (n + 1) % 2 = 1) :
    outsAt0 m c (n + 1) hn
      = (k0_pay5 (k0_pay2 (k0_pay7 (ablk m c ⟨n + 1, hn⟩) (bblk m c ⟨n + 1, hn⟩)) (outsAt0 m c n (Nat.lt_of_succ_lt hn)).2)
            (k0_pay4 (k0_pay8 (ablk m c ⟨n + 1, hn⟩) (bblk m c ⟨n + 1, hn⟩)) (outsAt0 m c n (Nat.lt_of_succ_lt hn)).1),
         k0_pay2 (k0_pay7 (ablk m c ⟨n + 1, hn⟩) (bblk m c ⟨n + 1, hn⟩)) (outsAt0 m c n (Nat.lt_of_succ_lt hn)).2) := by
  have hN : cfg0.N = 8 := N_0
  have h0 : ¬(⟨n + 1, hn⟩ : Fin cfg0.N).val % 2 = 0 := by dsimp only; omega
  have h1 : (⟨n + 1, hn⟩ : Fin cfg0.N).val % 2 = 1 := ho
  have h2 : ¬(⟨n + 1, hn⟩ : Fin cfg0.N).val % 8 = 0 := by dsimp only; omega
  refine (outsAt0_B m c ⟨n + 1, hn⟩ h0 h1 h2 h1).trans ?_
  exact congrArg₂ Prod.mk
    (out_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 _).mp h)) ((hcond0_1 _).mpr h1) (fun h => h2 ((hcond0_2 _).mp h)) ((hcond0_3 _).mpr h1) (iblk m c 0 ⟨n + 1, hn⟩) (iblk m c 1 ⟨n + 1, hn⟩) (outsAt0 m c n (Nat.lt_of_succ_lt hn)).1 (outsAt0 m c n (Nat.lt_of_succ_lt hn)).2)
    (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 _).mp h)) ((hcond0_1 _).mpr h1) (fun h => h2 ((hcond0_2 _).mp h)) ((hcond0_3 _).mpr h1) (iblk m c 0 ⟨n + 1, hn⟩) (iblk m c 1 ⟨n + 1, hn⟩) (outsAt0 m c n (Nat.lt_of_succ_lt hn)).1 (outsAt0 m c n (Nat.lt_of_succ_lt hn)).2)

/-! ## The invariant -/

/-- After point n the accumulator holds the contributions of the points 0 … n, and the column row holds the column
    minima of the batch's first block (n even) or of both its blocks (n odd). -/
theorem outs_inv (hA : ∀ c i, ∃ r : ℝ, arrA m c i = r) (hB : ∀ c i, ∃ r : ℝ, arrB m c i = r) (c : Dev nD) :
    ∀ (n : ℕ) (hn : n < cfg0.N),
      (∀ j : S1x1.Idx, (outsAt0 m c n hn).1 j = ∑ s ∈ Finset.range (n + 1), contribN (arrA m c) (arrB m c) s)
      ∧ (∀ q : Fin 4096, (outsAt0 m c n hn).2 (ix2 (0 : Fin 1) q)
          = if n % 2 = 0 then colBlk (arrA m c) (arrB m c) (bOf n) 0 q
            else min (colBlk (arrA m c) (arrB m c) (bOf n) 0 q) (colBlk (arrA m c) (arrB m c) (bOf n) 1 q))
  | 0, hn => by
    rw [at_first m c hn]
    refine ⟨fun j => ?_, fun q => ?_⟩
    · dsimp only
      rw [pay4_apply, pay3_apply, zero_add, part_eq m hA hB c 0 hn j, Finset.sum_range_succ, Finset.sum_range_zero, zero_add]
      show _ = contrib _ _ (bOf 0) (nbOf 0)
      unfold contrib
      rw [if_neg (by decide)]
    · dsimp only
      rw [pay1_eq, cmin_eq m hA hB c 0 hn q, if_pos rfl]
      rfl
  | n + 1, hn => by
    have hN : cfg0.N = 8 := N_0
    obtain ⟨ih1, ih2⟩ := outs_inv hA hB c n (Nat.lt_of_succ_lt hn)
    by_cases he : (n + 1) % 2 = 0
    · have hnb : nbOf (n + 1) = 0 := Fin.ext (by simp only [nbOf]; exact he)
      rw [at_even m c n hn he]
      refine ⟨fun j => ?_, fun q => ?_⟩
      · dsimp only
        rw [pay4_apply, ih1 j, part_eq m hA hB c (n + 1) hn j, Finset.sum_range_succ _ (n + 1)]
        congr 1
        show _ = contrib _ _ (bOf (n + 1)) (nbOf (n + 1))
        unfold contrib
        rw [hnb, if_neg (by decide)]
      · dsimp only
        rw [pay1_eq, cmin_eq m hA hB c (n + 1) hn q, if_pos he, hnb]
    · have ho : (n + 1) % 2 = 1 := by omega
      have hne : n % 2 = 0 := by omega
      have hb : bOf (n + 1) = bOf n := Fin.ext (by simp only [bOf]; omega)
      have hnb : nbOf (n + 1) = 1 := Fin.ext (by simp only [nbOf]; exact ho)
      rw [at_odd m c n hn ho]
      refine ⟨fun j => ?_, fun q => ?_⟩
      · dsimp only
        rw [pay5_apply, pay4_apply, ih1 j, part_eq m hA hB c (n + 1) hn j, Finset.sum_range_succ _ (n + 1), add_assoc]
        congr 1
        show _ = contrib _ _ (bOf (n + 1)) (nbOf (n + 1))
        unfold contrib
        rw [hnb, if_pos rfl]
        congr 1
        unfold colSum
        refine Finset.sum_congr rfl fun q _ => ?_
        rw [pay2_apply, ih2 q, if_pos hne, cmin_eq m hA hB c (n + 1) hn q, hb, hnb]
      · dsimp only
        rw [pay2_apply, ih2 q, if_pos hne, cmin_eq m hA hB c (n + 1) hn q, if_neg (by omega), hb, hnb]

/-- After the last point the accumulator holds the two sums of roots. -/
theorem last_acc (hA : ∀ c i, ∃ r : ℝ, arrA m c i = r) (hB : ∀ c i, ∃ r : ℝ, arrB m c i = r) (c : Dev nD)
    (h7 : 7 < cfg0.N) (j : S1x1.Idx) :
    (outsAt0 m c 7 h7).1 j = Cert.Chamfer.S1 (arrA m c) (arrB m c) + Cert.Chamfer.S2 (arrA m c) (arrB m c) := by
  rw [(outs_inv m hA hB c 7 h7).1 j]
  exact total_range _ _

end Cert.KernelIdeal.KValue

end
-- ==== Proof.KernelRun.lean ====
/-
  From the accumulator after the last grid point to the program's result.

  The (1,1) result array is written back once, after the eighth point, with the accumulator's contents; the host then
  reshapes it to a scalar and divides by 32768. Given that the accumulator then holds the two sums of roots, the
  program's result is the loss, and the two argument arrays are as they were.
-/
import proofs.«109187_g19164144075464_cont_8to1_1702_14_alg».proof.Proof.Gen.KernelIdeal.Frame
import proofs.«109187_g19164144075464_cont_8to1_1702_14_alg».proof.Proof.Blocks
import proofs.«109187_g19164144075464_cont_8to1_1702_14_alg».proof.Proof.Spec
import proofs.«109187_g19164144075464_cont_8to1_1702_14_alg».proof.Proof.Consts
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.Chamfer Cert.KernelIdeal.Blocks

variable (m : (ℓ : Loc nD τ sig) → Buf (Elt Ideal) ℓ) (ρ : Dev nD → PrngReg)

/-- The accumulated total of the two clouds, as contents of the (1,1) result array: the same number at its one index. -/
private abbrev total (c : Dev nD) : Buf (Elt Ideal) ((c : Thread nD τ).loc main_v1) :=
  fun _ => Cert.Chamfer.S1 (arrA m c) (arrB m c) + Cert.Chamfer.S2 (arrA m c) (arrB m c)

section
variable (hacc : ∀ (c : Dev nD) (h7 : 7 < cfg0.N) (j : S1x1.Idx),
      (outsAt0 m c 7 h7).1 j = Cert.Chamfer.S1 (arrA m c) (arrB m c) + Cert.Chamfer.S2 (arrA m c) (arrB m c))
include hacc

/-- The result window is written back at the eighth point only, and what is written there is the accumulator's
    contents: the total at the block's one index. -/
private theorem written_eq (c : Dev nD) (t : Fin cfg0.N) (hf : (cfg0.win 2).flush t = true) :
    (dats m 0 c).flushed 2 t = ((cfg0.win 2).blk t).view.read (Elt Ideal) (total m c) := by
  have hN : cfg0.N = 8 := N_0
  have hlast : t = t0_7 := Fin.ext (by
    have h8 := (flush0_2 t).mp hf
    have hlt := t.isLt
    show t.val = 7
    omega)
  subst hlast
  show (cfg0.win 2).cut (grid0.coords t0_7) ((dats m 0 c).after 2 t0_7) = _
  rw [after0_2]
  funext j
  rw [View.read_apply]
  exact hacc c _ _

/-- The (1,1) result array has one index, and the eighth point's block holds it: the array ends at the total. -/
private theorem result_array (c : Dev nD) : (dats m 0 c).arrAt 2 cfg0.N = total m c := by
  refine (dats m 0 c).arrAt_eq_of_cover 2 (total m c) (written_eq m hacc c) fun i => ⟨t0_7, (flush0_2 t0_7).mpr rfl, ?_⟩
  show i ∈ ((View.whole main_v1).slice (win0_2.rect t0_7)).set
  rw [View.set_slice_whole, Rect.mem_set_unit]
  intro a
  have hblock : ∀ a : Fin 2, win0_2.index t0_7 a * win0_2.size a = 0 ∧ win0_2.xsize (grid0.coords t0_7) a = 1 := by
    decide +kernel
  have hi : (i a : Nat) < 1 := by
    match a with
    | ⟨0, _⟩ => exact (i 0).isLt
    | ⟨1, _⟩ => exact (i 1).isLt
  show win0_2.index t0_7 a * win0_2.size a ≤ (i a : Nat)
    ∧ (i a : Nat) < win0_2.index t0_7 a * win0_2.size a + win0_2.xsize (grid0.coords t0_7) a
  rw [(hblock a).1, (hblock a).2]
  omega

/-- The host's tail on the result array: the reshape to a scalar and the division by 32768 give the loss. -/
private theorem tail_eq (c : Dev nD) :
    Pipeline.afterTail₀ cfgs (dats m) 0 (V0 m) [hostOps1] c main_v3 = fun _ => loss (arrA m c) (arrB m c) := by
  unfold Pipeline.afterTail₀
  show StableHlo.after hostOps1 _ (Proc.devRef .tc main_v3) = _
  after_results
  -- the result array, as the tail finds it, holds the total
  have hw : Pipeline.withArrays (cfgs 0).spec c (V0 m c) (fun w => (dats m 0 c).arrAt w (cfgs 0).N)
      (Proc.devRef .tc main_v1) = total m c :=
    (Pipeline.withArrays_arr spec0 launch0.win.arr_inj c (V0 m c) (fun w => (dats m 0 c).arrAt w cfg0.N) 2).trans
      (result_array m hacc c)
  rw [hw]
  funext j
  -- the scalar read of a constant array is that constant; the host's quotient is the extended reals' division
  show Ideal.div (Cert.Chamfer.S1 (arrA m c) (arrB m c) + Cert.Chamfer.S2 (arrA m c) (arrB m c))
      (Ideal.ofBits .f32 0x47000000#32) = loss (arrA m c) (arrB m c)
  rw [Cert.Chamfer.Consts.n32768_f32]
  rfl

end

/-- The run, read: the scalar result at the loss of the two argument arrays, the arguments unchanged. -/
theorem run
    (hacc : ∀ (c : Dev nD) (h7 : 7 < cfg0.N) (j : S1x1.Idx),
      (outsAt0 m c 7 h7).1 j = Cert.Chamfer.S1 (arrA m c) (arrB m c) + Cert.Chamfer.S2 (arrA m c) (arrB m c)) :
    θ_run (defs (F := Ideal)) (onTc (τ := τ) (main (F := Ideal))) ⟨m, fun _ => 0, ρ⟩ fun r => ∀ c : Dev nD,
      r.2.mem ((c.tc : Thread nD τ).loc main_v3) = (fun _ => loss (arrA m c) (arrB m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · -- the scalar result: no window stages it, so it is what the host's tail leaves
    exact ((h c).2 main_v3 (Pipeline.mem_restRefs_of main_v3 (by decide) (by decide))).trans (tail_eq m hacc c)
  · -- the first cloud is an input window's array: it ends as the region found it, which is as launched
    exact ((h c).1 0).trans (((dats m 0 c).arrAt_in 0 rfl _).trans ((A_eq m c 0).trans (V_main_arg0 m c)))
  · -- the second cloud bypasses the pipeline and no host operation writes it
    exact ((h c).2 main_arg1 (Pipeline.mem_restRefs_of main_arg1 (by decide) (by decide))).trans (W_main_arg1 m (dats m) c)

end Cert.KernelIdeal.KRun

end
-- ==== Proof.lean ====
/-
  The certificate: the fused kernel computes the L1 Chamfer loss of jnp's reference, over the extended reals.

  Both programs take two clouds of 4 × 4096 points in three coordinates. The reference forms every clamped squared
  distance |a|² + |b|² - 2 a·b, takes each point's minimum against the other cloud, and averages the square roots of the
  2·4·4096 minima. The kernel visits eight grid points (four batches, two blocks of 2048 rows): at each it obtains the
  block's unclamped distances from one matrix product of depth seven (the norms ride in extra columns against ones,
  split into a leading part and an exact remainder that vanishes on finite numbers), takes row minima and column minima,
  clamps AFTER the minimum, keeps the column minima across a batch's two blocks, and adds the roots into one (1,1)
  accumulator, which the host finally divides by 32768. On finite inputs the two agree: the clamp commutes with a
  minimum, a minimum over 4096 rows is the minimum of two block minima, sums may be taken in any order, and two means
  over 16384 terms averaged are one quotient by 32768 because the sums are not negative.

  The three frames are the generated ones (the reference's is its generated run with the result dropped); the two
  rewrites of the idealization are instances of the rule that widening a narrowed value gives it back.
-/
import proofs.«109187_g19164144075464_cont_8to1_1702_14_alg».proof.Defs
import proofs.«109187_g19164144075464_cont_8to1_1702_14_alg».proof.Proof.Gen.Kernel
import proofs.«109187_g19164144075464_cont_8to1_1702_14_alg».proof.Proof.Gen.Kernel.Frame
import proofs.«109187_g19164144075464_cont_8to1_1702_14_alg».proof.Proof.Gen.KernelIdeal
import proofs.«109187_g19164144075464_cont_8to1_1702_14_alg».proof.Proof.Gen.KernelIdeal.Frame
import proofs.«109187_g19164144075464_cont_8to1_1702_14_alg».proof.Proof.Gen.ReferenceIdeal
import proofs.«109187_g19164144075464_cont_8to1_1702_14_alg».proof.Proof.Gen.ReferenceIdeal.Run
import proofs.«109187_g19164144075464_cont_8to1_1702_14_alg».proof.Proof.Gen.ReferenceIdeal.Read
import proofs.«109187_g19164144075464_cont_8to1_1702_14_alg».proof.Proof.Gen.Pre_finite_inputs
import proofs.«109187_g19164144075464_cont_8to1_1702_14_alg».proof.Proof.Finite
import proofs.«109187_g19164144075464_cont_8to1_1702_14_alg».proof.Proof.RefValue
import proofs.«109187_g19164144075464_cont_8to1_1702_14_alg».proof.Proof.KernelValue
import proofs.«109187_g19164144075464_cont_8to1_1702_14_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two rewrites: the squared norms of either cloud, narrowed to bf16 and widened back, read as themselves. -/
theorem preserves : Cert.preserves_Kernel_KernelIdeal :=
  ⟨IdealRules.truncf_extf.statement Cert.KernelIdeal.S2048x1 .f32 .bf16,
   IdealRules.truncf_extf.statement Cert.KernelIdeal.S1x4096 .f32 .bf16⟩

/-- On finite clouds both programs end at the loss of the clouds. -/
theorem algebraic : Cert.algebraic_KernelIdeal_ReferenceIdeal := by
  intro m ρ m' ρ' hpre hagree
  have hfin := fun c : Dev Cert.KernelIdeal.nD => Cert.Chamfer.Finite.finite_of_fn _ _ (hpre c)
  refine ⟨fun c => (fun _ => Cert.Chamfer.loss (Cert.KernelIdeal.Blocks.arrA m c) (Cert.KernelIdeal.Blocks.arrB m c)),
    Cert.KernelIdeal.KRun.run m ρ (fun c h7 j =>
      Cert.KernelIdeal.KValue.last_acc m (fun c => (hfin c).1) (fun c => (hfin c).2) c h7 j), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v24_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
